-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : IVec S4096 32) (main_arg1 : FVec F S4096x512 .f32) : IVec S_ 1 :=
  let main_v0 : FVec F S4096x512 .f32 := Host.absf main_arg1
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_c_0 : IVec S_ 32 := constantI S_ 32 0#32
  let main_v4 : IVec S4096 32 := broadcastInDim S4096 ![] bcast_S_S4096 main_c_0
  let main_v5 : IVec S4096 1 := cmpi .sge main_arg0 main_v4
  let main_c_1 : IVec S_ 1 := constantI S_ 1 1#1
  let main_v6 : IVec S_ 1 := (fun x v => Host.reduce IntOp.andi x v reducesTo_S4096_S_d0 h_S_) main_v5 main_c_1
  let main_v7 : IVec S_ 1 := andi main_v3 main_v6
  let main_c_2 : IVec S_ 32 := constantI S_ 32 100#32
  let main_v8 : IVec S4096 32 := broadcastInDim S4096 ![] bcast_S_S4096 main_c_2
  let main_v9 : IVec S4096 1 := cmpi .slt main_arg0 main_v8
  let main_c_3 : IVec S_ 1 := constantI S_ 1 1#1
  let main_v10 : IVec S_ 1 := (fun x v => Host.reduce IntOp.andi x v reducesTo_S4096_S_d0 h_S_) main_v9 main_c_3
  let main_v11 : IVec S_ 1 := andi main_v7 main_v10
  main_v11
-- ==== Kernel.lean ====
abbrev S4096 : Shape := ⟨1, ![4096]⟩
abbrev S4096x512 : Shape := ⟨2, ![4096, 512]⟩
abbrev S_ : Shape := ⟨0, ![]⟩
abbrev S100 : Shape := ⟨1, ![100]⟩
abbrev S4096x1 : Shape := ⟨2, ![4096, 1]⟩
abbrev S1x4096 : Shape := ⟨2, ![1, 4096]⟩
abbrev S1x1 : Shape := ⟨2, ![1, 1]⟩
abbrev S512x512 : Shape := ⟨2, ![512, 512]⟩
abbrev S512x1 : Shape := ⟨2, ![512, 1]⟩
abbrev S1x512 : Shape := ⟨2, ![1, 512]⟩
abbrev S512 : Shape := ⟨1, ![512]⟩
abbrev S1 : Shape := ⟨1, ![1]⟩

abbrev nBuf : Space → Nat
  | .hbm => 34
  | .vmem => 16
  | .smem => 0
  | _ => 0

abbrev bufTy : (tb : Table) → Fin (tcTables nBuf tb) → BufTy
  | .hbm, ⟨0, _⟩ => ⟨S4096, .i32⟩
  | .hbm, ⟨1, _⟩ => ⟨S4096x512, .f32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S_, .f32⟩
  | .hbm, ⟨6, _⟩ => ⟨S100, .f32⟩
  | .hbm, ⟨7, _⟩ => ⟨S_, .i32⟩
  | .hbm, ⟨8, _⟩ => ⟨S4096, .i32⟩
  | .hbm, ⟨9, _⟩ => ⟨S4096, .i1⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S4096, .i32⟩
  | .hbm, ⟨14, _⟩ => ⟨S4096x1, .i32⟩
  | .hbm, ⟨15, _⟩ => ⟨S_, .f32⟩
  | .hbm, ⟨16, _⟩ => ⟨S4096, .f32⟩
  | .hbm, ⟨17, _⟩ => ⟨S100, .f32⟩
  | .hbm, ⟨18, _⟩ => ⟨S100, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4096x512, .bf16⟩
  | .hbm, ⟨26, _⟩ => ⟨S4096x1, .f32⟩
  | .hbm, ⟨27, _⟩ => ⟨S1x4096, .f32⟩
  | .hbm, ⟨28, _⟩ => ⟨S4096x1, .i32⟩
  | .hbm, ⟨29, _⟩ => ⟨S1x4096, .i32⟩
  | .hbm, ⟨30, _⟩ => ⟨S1x1, .f32⟩
  | .hbm, ⟨31, _⟩ => ⟨S1x1, .f32⟩
  | .hbm, ⟨32, _⟩ => ⟨S1x1, .f32⟩
  | .hbm, ⟨33, _⟩ => ⟨S_, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1, .f32⟩
  | .local _ .vmem, ⟨5, _⟩ => ⟨S512x1, .f32⟩
  | .local _ .vmem, ⟨6, _⟩ => ⟨S1x512, .f32⟩
  | .local _ .vmem, ⟨7, _⟩ => ⟨S1x512, .f32⟩
  | .local _ .vmem, ⟨8, _⟩ => ⟨S512x1, .i32⟩
  | .local _ .vmem, ⟨9, _⟩ => ⟨S512x1, .i32⟩
  | .local _ .vmem, ⟨10, _⟩ => ⟨S1x512, .i32⟩
  | .local _ .vmem, ⟨11, _⟩ => ⟨S1x512, .i32⟩
  | .local _ .vmem, ⟨12, _⟩ => ⟨S1x1, .f32⟩
  | .local _ .vmem, ⟨13, _⟩ => ⟨S1x1, .f32⟩
  | .local _ .vmem, ⟨14, _⟩ => ⟨S1x1, .f32⟩
  | .local _ .vmem, ⟨15, _⟩ => ⟨S1x1, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_cst_4 : Ref sig .tc := ⟨.hbm, 21, rfl⟩
abbrev main_cst_5 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c7_i32 : BitVec 32 := 7#32
  let v56 : BitVec 1 := Scalar.cmpi .eq arg0 c7_i32
  let arg1 : BitVec 32 := BitVec.ofNat 32 (i 1).val
  let c7_i32_28 : BitVec 32 := 7#32
  let v57 : BitVec 1 := Scalar.cmpi .eq arg1 c7_i32_28
  let v58 : BitVec 1 := Scalar.andi v56 v57
  let v59 : BitVec 32 := Scalar.extui v58
  let c0_i32_29 : BitVec 32 := 0#32
  let v60 : BitVec 1 := Scalar.cmpi .ne v59 c0_i32_29
  v60

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

class Facts₀ : Prop where
  reducesTo_S4096x512_S4096_d1 : S4096x512.ReducesTo [1] S4096
  h_S_ : 0 < S_.numel
  bcast_S_S100 : S_.BroadcastsInDim S100 (![] : Fin 0 → Fin S100.rank)
  bcast_S_S4096 : S_.BroadcastsInDim S4096 (![] : Fin 0 → Fin S4096.rank)
  bcast_S4096_S4096x1_0 : S4096.BroadcastsInDim S4096x1 (![0] : Fin 1 → Fin S4096x1.rank)
  reducesTo_S100_S_d0 : S100.ReducesTo [0] S_
  bitsLt_bf16_f32 : FTy.bits .bf16 < FTy.bits .f32
  shapeCasts_S4096_S4096x1 : S4096.ShapeCasts S4096x1
  shapeCasts_S4096_S1x4096 : S4096.ShapeCasts S1x4096
  shapeCasts_S_S1x1 : S_.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  transposes_S512x512_p1_0_S512x512 : S512x512.Transposes [1, 0] S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  broadcasts_S512x1_S512x512 : S512x1.Broadcasts S512x512
  broadcasts_S1x1_S512x512 : S1x1.Broadcasts S512x512
  reduces_S512x512_S512 : S512x512.Reduces [1] S512
  shapeCasts_S512_S512x1 : S512.ShapeCasts S512x1
  reduces_S512x1_S1 : S512x1.Reduces [0] S1
  shapeCasts_S1_S1x1 : S1.ShapeCasts S1x1
  shapeCasts_S1x1_S_ : S1x1.ShapeCasts S_
  scatter_S100_S4096x1_S4096_n_0_0_1_wf : ScatterDims.WF S100 S4096x1 S4096 [] [0] [0] 1
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .bf16 = 32 ∨ (Rect.block (s := S4096x512) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x512.size a
  hwx0_1 : ∀ i : grid0.Coords, EltTy.bits .bf16 = 32 ∨ (Rect.block (s := S4096x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .i32 = 32 ∨ (Rect.block (s := S4096x1) S512x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x4096.size a
  hwx0_5 : ∀ i : grid0.Coords, EltTy.bits .i32 = 32 ∨ (Rect.block (s := S1x4096) S1x512.size (cc0_transform_5 i) (hinb0_5 i)).WholeWords (EltTy.packing .i32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)

variable [Facts₀]

def scatter_S100_S4096x1_S4096_n_0_0_1 : ScatterDims S100 S4096x1 S4096 where
  updateWindowDims := []
  insertedWindowDims := [0]
  scatterDimsToOperandDims := [0]
  indexVectorDim := 1
  wf := scatter_S100_S4096x1_S4096_n_0_0_1_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_v15) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S1x1.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S4096 : Shape := ⟨1, ![4096]⟩
abbrev S4096x512 : Shape := ⟨2, ![4096, 512]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S512x4096 : Shape := ⟨2, ![512, 4096]⟩

abbrev nBuf : Space → Nat
  | .hbm => 54
  | .vmem => 0
  | .smem => 0
  | _ => 0

abbrev bufTy : (tb : Table) → Fin (tcTables nBuf tb) → BufTy
  | .hbm, ⟨0, _⟩ => ⟨S4096, .i32⟩
  | .hbm, ⟨1, _⟩ => ⟨S4096x512, .f32⟩
  | .hbm, ⟨2, _⟩ => ⟨S1x4096, .i32⟩
  | .hbm, ⟨3, _⟩ => ⟨S4096x1, .i32⟩
  | .hbm, ⟨4, _⟩ => ⟨S4096x4096, .i32⟩
  | .hbm, ⟨5, _⟩ => ⟨S4096x4096, .i32⟩
  | .hbm, ⟨6, _⟩ => ⟨S4096x4096, .i32⟩
  | .hbm, ⟨7, _⟩ => ⟨S_, .i32⟩
  | .hbm, ⟨8, _⟩ => ⟨S4096x4096, .i32⟩
  | .hbm, ⟨9, _⟩ => ⟨S4096x4096, .i1⟩
  | .hbm, ⟨10, _⟩ => ⟨S4096x512, .f32⟩
  | .hbm, ⟨11, _⟩ => ⟨S_, .f32⟩
  | .hbm, ⟨12, _⟩ => ⟨S4096, .f32⟩
  | .hbm, ⟨13, _⟩ => ⟨S512x4096, .f32⟩
  | .hbm, ⟨14, _⟩ => ⟨S4096x4096, .f32⟩
  | .hbm, ⟨15, _⟩ => ⟨S1x4096, .f32⟩
  | .hbm, ⟨16, _⟩ => ⟨S4096x1, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S4096x4096, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S_, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_3 : Ref sig .tc := ⟨.hbm, 32, rfl⟩
abbrev main_v25 : Ref sig .tc := ⟨.hbm, 33, rfl⟩
abbrev main_c_4 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_call0_cst : Ref sig .tc := ⟨.hbm, 39, rfl⟩
abbrev main_call0_v0 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S4096_S4096x1_0 : S4096.BroadcastsInDim S4096x1 (![0] : Fin 1 → Fin S4096x1.rank)
  bcast_S1x4096_S4096x4096_0_1 : S1x4096.BroadcastsInDim S4096x4096 (![0, 1] : Fin 2 → Fin S4096x4096.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  reducesTo_S4096x512_S4096_d1 : S4096x512.ReducesTo [1] S4096
  h_S_ : 0 < S_.numel
  transposes_S4096x512_S512x4096_1_0 : S4096x512.Transposes [1, 0] S512x4096
  natLt_1_32 : 1 < 32
  reducesTo_S4096x4096_S_d0_1 : S4096x4096.ReducesTo [0, 1] S_
  dot_S4096x512_S512x4096_S4096x4096_1_0_0_1_n_n_wf : DotDims.WF S4096x512 S512x4096 S4096x4096 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf

class Facts : Prop extends Facts₀ where

variable [Facts]
-- ==== Proof.Kernel.Kit.lean ====
import proofs.«428971_j45028437131690_1_alg».proof.Proof.Gen.Kernel.Launch
import proofs.«428971_j45028437131690_1_alg».proof.Proof.Gen.Kernel.Skeleton
import proofs.«428971_j45028437131690_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

/-! # The launch side of the program's one kernel region

@main is thirty host operations, one kernel region on an 8 × 8 grid with nine windows (eight inputs, one output) and
one scratch buffer, then one host operation (a reshape of the region's output). Windows 0 and 1 stage the same array.
This module states, for that region: the buffer contents at its entry and @main around it; that the line after it
touches only what it may; each input window's block at every grid point; where the output window is idle; the scratch
buffer in the region's invariant; what the line after the region leaves; and how the core's full share of the shared
array is dealt between the two windows on it and joined again. -/

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## @main around the region -/

/-- Core `c`'s buffer contents when the region is entered, as a valuation: after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations allocate nothing. -/
theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main around the region: the host operations before it, the region, the host operation after it. It reduces to
    the region continued by the later operation, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operation after the region touches the windows' arrays and the buffers that bypass the region only: its buffers
    are unscoped TensorCore references, and with nothing prefetched every such reference is one or the other. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 winFacts₀0.arr_unscoped]
  intro ops hops op hop
  simp only [List.mem_cons, List.mem_nil_iff, or_false] at hops
  rcases hops with rfl
  · exact Pipeline.sub_ucRefs op ((List.forall_iff_forall_mem.mp hostOps1_sub) op hop)

/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-- It writes no array of the windows: it writes only its own result, which is none of them. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No operation before the region writes an argument of @main. -/
theorem hostOps0_keeps_arg0 : ∀ op ∈ (hostOps0 : List (HloOp τ sig (Elt F))), Proc.devRef .tc main_arg0 ∉ op.writes := by
  intro op hop
  simp only [hostOps0, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.reshape_writes, Finset.mem_singleton] <;> exact StableHlo.devRef_ne_of_ne (by decide)

theorem hostOps0_keeps_arg1 : ∀ op ∈ (hostOps0 : List (HloOp τ sig (Elt F))), Proc.devRef .tc main_arg1 ∉ op.writes := by
  intro op hop
  simp only [hostOps0, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.reshape_writes, Finset.mem_singleton] <;> exact StableHlo.devRef_ne_of_ne (by decide)

/-- So the region is entered with the arguments at their launch contents. -/
theorem V_main_arg0 (c : Dev nD) : V m c main_arg0 = m ((c : Thread nD τ).loc main_arg0) := by
  show StableHlo.after hostOps0 (fun b => m (c, b)) (Proc.devRef .tc main_arg0) = _
  exact StableHlo.after_of_forall_not_mem _ _ hostOps0_keeps_arg0

theorem V_main_arg1 (c : Dev nD) : V m c main_arg1 = m ((c : Thread nD τ).loc main_arg1) := by
  show StableHlo.after hostOps0 (fun b => m (c, b)) (Proc.devRef .tc main_arg1) = _
  exact StableHlo.after_of_forall_not_mem _ _ hostOps0_keeps_arg1

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents (`hA`) and whose body leaves the block in place (`hafter`): unfetched, the
    block index has not moved. The window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the region-entry contents (`hA`) and whose body leaves the block in place (`hafter`): unfetched, the
    block index has not moved. The window is uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the region-entry contents (`hA`) and whose body leaves the block in place (`hafter`): unfetched, the
    block index has not moved. The window is uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is the region-entry contents (`hA`) and whose body leaves the block in place (`hafter`): unfetched, the
    block index has not moved. The window is uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof data
    whose array is the region-entry contents (`hA`) and whose body leaves the block in place (`hafter`): unfetched, the
    block index has not moved. The window is uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not, for any proof data
    whose array is the region-entry contents (`hA`) and whose body leaves the block in place (`hafter`): unfetched, the
    block index has not moved. The window is uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not, for any proof data
    whose array is the region-entry contents (`hA`) and whose body leaves the block in place (`hafter`): unfetched, the
    block index has not moved. The window is uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not, for any proof data
    whose array is the region-entry contents (`hA`) and whose body leaves the block in place (`hafter`): unfetched, the
    block index has not moved. The window is uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## Where the windows are idle -/

/-- An input window is never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel

/-- The output window is idle at every point but the last: the body stores into it at the last point only. -/
theorem idleAt0_8 : ∀ t : Fin cfg0.N, t.val ≠ 63 → cfg0.idle 8 (grid0.coords t) = true := by decide +kernel
/-- Nor is its block written back before the last point. -/
theorem noFlush0_8 : ∀ t : Fin cfg0.N, t.val ≠ 63 → (cfg0.win 8).flush t = false := by decide +kernel
/-- At the last point the output window is live. -/
theorem liveAt0_8 : ∀ t : Fin cfg0.N, t.val = 63 → cfg0.idle 8 (grid0.coords t) = false := by decide +kernel

/-! ## The scratch operand -/

/-- The scratch operand: a whole scoped buffer of the kernel's own, carried between grid points. -/
abbrev scM : Memref sig .tc .vmem S1x1 .f32 := Memref.whole cc0_scratch0

/-- The region's invariant with the scratch operand as a memref owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The lines after the region -/

/-- The arguments and the result of @main are unscoped and no window's array: they bypass the region. -/
theorem main_arg0_mem_rest : main_arg0 ∈ Pipeline.restRefs sig spec0 :=
  Pipeline.mem_restRefs_of main_arg0 rfl (by decide)

theorem main_arg1_mem_rest : main_arg1 ∈ Pipeline.restRefs sig spec0 :=
  Pipeline.mem_restRefs_of main_arg1 rfl (by decide)

theorem main_v23_mem_rest : main_v23 ∈ Pipeline.restRefs sig spec0 :=
  Pipeline.mem_restRefs_of main_v23 rfl (by decide)

/-- The line after the region writes neither argument of @main. -/
theorem hostOps1_keeps_arg0 : ∀ op ∈ (List.flatten [hostOps1] : List (HloOp τ sig (Elt F))), Proc.devRef .tc main_arg0 ∉ op.writes := by
  intro op hop
  simp only [hostOps1, List.flatten_cons, List.flatten_nil, List.append_nil, List.mem_cons, List.mem_nil_iff, or_false] at hop
  rcases hop with rfl
  simp only [StableHlo.reshape_writes, Finset.mem_singleton]; exact StableHlo.devRef_ne_of_ne (by decide)

theorem hostOps1_keeps_arg1 : ∀ op ∈ (List.flatten [hostOps1] : List (HloOp τ sig (Elt F))), Proc.devRef .tc main_arg1 ∉ op.writes := by
  intro op hop
  simp only [hostOps1, List.flatten_cons, List.flatten_nil, List.append_nil, List.mem_cons, List.mem_nil_iff, or_false] at hop
  rcases hop with rfl
  simp only [StableHlo.reshape_writes, Finset.mem_singleton]; exact StableHlo.devRef_ne_of_ne (by decide)

/-- An argument of @main holds its launch contents after the operation that follows the region, from any contents `VN`
    that agree with the region-entry contents at it. -/
theorem arg0_kept (c : Dev nD) (VN : Valuation τ sig (Elt F))
    (h0 : VN (Proc.devRef .tc main_arg0) = V0 m c (Proc.devRef .tc main_arg0)) :
    StableHlo.after (List.flatten [hostOps1]) VN (Proc.devRef .tc main_arg0) = m ((c.tc : Thread nD τ).loc main_arg0) :=
  (StableHlo.after_of_forall_not_mem _ VN hostOps1_keeps_arg0).trans (h0.trans (V_main_arg0 m c))

theorem arg1_kept (c : Dev nD) (VN : Valuation τ sig (Elt F))
    (h0 : VN (Proc.devRef .tc main_arg1) = V0 m c (Proc.devRef .tc main_arg1)) :
    StableHlo.after (List.flatten [hostOps1]) VN (Proc.devRef .tc main_arg1) = m ((c.tc : Thread nD τ).loc main_arg1) :=
  (StableHlo.after_of_forall_not_mem _ VN hostOps1_keeps_arg1).trans (h0.trans (V_main_arg1 m c))

/-- The result of @main after the line that follows the region: the region's output array, reshaped. -/
theorem result_after (VN : Valuation τ sig (Elt F)) :
    StableHlo.after (List.flatten [hostOps1]) VN (Proc.devRef .tc main_v23)
      = shapeCast S_ (VN (Proc.devRef .tc main_v22)) shapeCasts_S1x1_S_ := by
  show StableHlo.after hostOps1 VN (Proc.devRef .tc main_v23) = _
  after_results
  rfl

/-! ## The shares of the windows' arrays

Windows 0 and 1 stage one array. The core deals its full share of that array between them, a half each; every other
window holds its own array whole. -/

/-- The share each window holds of its array. -/
def qS : Fin cfg0.W → PosShare TreeShare := fun w =>
  if w = 0 then fullShare.left else if w = 1 then fullShare.right else fullShare

/-- The distinct buffers behind the windows' arrays. -/
theorem arrImage_eq : Finset.univ.image (Pipeline.arrRef spec0)
    = [main_v15, main_v16, main_v17, main_v18, main_v19, main_v20, main_v21, main_v22].toFinset := by decide

/-- The buffers behind the arrays, each whole at the full share, one by one. -/
theorem arrBufs_eq (c : Dev nD) (W : (b : Ref sig .tc) → Buf (Elt F) ((c.tc : Thread nD τ).loc b)) :
    (Pipeline.arrBufs spec0 c W : sProp 𝕄)
      = iprop((((c.tc : Thread nD τ).loc main_v15) ↦{fullShare} W main_v15) ∗ (((c.tc : Thread nD τ).loc main_v16) ↦{fullShare} W main_v16)
        ∗ (((c.tc : Thread nD τ).loc main_v17) ↦{fullShare} W main_v17) ∗ (((c.tc : Thread nD τ).loc main_v18) ↦{fullShare} W main_v18)
        ∗ (((c.tc : Thread nD τ).loc main_v19) ↦{fullShare} W main_v19) ∗ (((c.tc : Thread nD τ).loc main_v20) ↦{fullShare} W main_v20)
        ∗ (((c.tc : Thread nD τ).loc main_v21) ↦{fullShare} W main_v21) ∗ (((c.tc : Thread nD τ).loc main_v22) ↦{fullShare} W main_v22)) := by
  unfold Pipeline.arrBufs
  rw [bigSep_eq_bigSepL_of_eq _ arrImage_eq (by decide)]
  rfl

/-- The share the core holds each window's array at, when it deals them by `qS`: an output's is full. -/
def shareS (w : Fin cfg0.W) : PosShare TreeShare := if (cfg0.win w).isOut then fullShare else qS w

/-- The pipeline's arrays as whole buffers at the contents `W`, window by window. -/
theorem arrays_eq_bigSep {c : Dev nD} (dat : Dat τ (Elt F) Unit ℕ (UR sig nD τ) ℕ cfg0 c) (hq : dat.q = qS)
    (W : (b : Ref sig .tc) → Buf (Elt F) ((c.tc : Thread nD τ).loc b))
    (Fw : (w : Fin cfg0.W) → Buf (Elt F) ((cfg0.win w).arr.view.loc (c.tc : Thread nD τ)))
    (hF : ∀ w, Fw w = W (Pipeline.arrRef spec0 w)) :
    (dat.arrays Fw : sProp 𝕄)
      = bigSep Finset.univ fun w : Fin 9 => (((c.tc : Thread nD τ).loc (Pipeline.arrRef spec0 w)) ↦{shareS w} W (Pipeline.arrRef spec0 w) : sProp 𝕄) := by
  unfold Dat.arrays
  refine bigSep_congr fun w _ => ?_
  rw [(arr_whole0 w).set_eq_univ, hF w]
  unfold Dat.share shareS
  rw [hq]

/-- The same one by one: the shared array twice, a half each. -/
theorem arrays_eq {c : Dev nD} (dat : Dat τ (Elt F) Unit ℕ (UR sig nD τ) ℕ cfg0 c) (hq : dat.q = qS)
    (W : (b : Ref sig .tc) → Buf (Elt F) ((c.tc : Thread nD τ).loc b))
    (Fw : (w : Fin cfg0.W) → Buf (Elt F) ((cfg0.win w).arr.view.loc (c.tc : Thread nD τ)))
    (hF : ∀ w, Fw w = W (Pipeline.arrRef spec0 w)) :
    (dat.arrays Fw : sProp 𝕄)
      = iprop((((c.tc : Thread nD τ).loc main_v15) ↦{fullShare.left} W main_v15) ∗ (((c.tc : Thread nD τ).loc main_v15) ↦{fullShare.right} W main_v15)
        ∗ (((c.tc : Thread nD τ).loc main_v16) ↦{fullShare} W main_v16)
        ∗ (((c.tc : Thread nD τ).loc main_v17) ↦{fullShare} W main_v17) ∗ (((c.tc : Thread nD τ).loc main_v18) ↦{fullShare} W main_v18)
        ∗ (((c.tc : Thread nD τ).loc main_v19) ↦{fullShare} W main_v19) ∗ (((c.tc : Thread nD τ).loc main_v20) ↦{fullShare} W main_v20)
        ∗ (((c.tc : Thread nD τ).loc main_v21) ↦{fullShare} W main_v21) ∗ (((c.tc : Thread nD τ).loc main_v22) ↦{fullShare} W main_v22)) := by
  rw [arrays_eq_bigSep dat hq W Fw hF, bigSep_W0]
  rfl

theorem arrays_of_arrBufs {c : Dev nD} (dat : Dat τ (Elt F) Unit ℕ (UR sig nD τ) ℕ cfg0 c) (hq : dat.q = qS)
    (W : (b : Ref sig .tc) → Buf (Elt F) ((c.tc : Thread nD τ).loc b))
    (Fw : (w : Fin cfg0.W) → Buf (Elt F) ((cfg0.win w).arr.view.loc (c.tc : Thread nD τ)))
    (hF : ∀ w, Fw w = W (Pipeline.arrRef spec0 w)) :
    (Pipeline.arrBufs spec0 c W : sProp 𝕄) ⊢ dat.arrays Fw := by
  rw [arrBufs_eq, arrays_eq dat hq W Fw hF]
  iintro ⟨H15, H16, H17, H18, H19, H20, H21, H22⟩
  ihave H15 := (pointsTo_share (PosShare.mem_left_op_right fullShare)).1 $$ H15
  icases H15 with ⟨Ha, Hb⟩
  isplitl [Ha]; · iexact Ha
  isplitl [Hb]; · iexact Hb
  isplitl [H16]; · iexact H16
  isplitl [H17]; · iexact H17
  isplitl [H18]; · iexact H18
  isplitl [H19]; · iexact H19
  isplitl [H20]; · iexact H20
  isplitl [H21]; · iexact H21
  iexact H22

theorem arrBufs_of_arrays {c : Dev nD} (dat : Dat τ (Elt F) Unit ℕ (UR sig nD τ) ℕ cfg0 c) (hq : dat.q = qS)
    (W : (b : Ref sig .tc) → Buf (Elt F) ((c.tc : Thread nD τ).loc b))
    (Fw : (w : Fin cfg0.W) → Buf (Elt F) ((cfg0.win w).arr.view.loc (c.tc : Thread nD τ)))
    (hF : ∀ w, Fw w = W (Pipeline.arrRef spec0 w)) :
    dat.arrays Fw ⊢ (Pipeline.arrBufs spec0 c W : sProp 𝕄) := by
  rw [arrBufs_eq, arrays_eq dat hq W Fw hF]
  iintro ⟨Ha, Hb, H16, H17, H18, H19, H20, H21, H22⟩
  ihave H15 := (pointsTo_share (PosShare.mem_left_op_right fullShare)).2 $$ [Ha Hb]
  · isplitl [Ha] <;> iassumption
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

end Cert.Kernel.Hand

end
-- ==== Proof.Kernel.Body.lean ====
/- The kernel body's Hoare triples, one per control case of a grid point (first, middle, last), generic in the
   float instance: on whole staging memrefs holding the point's eight input blocks, the body leaves the carried
   one-element accumulator at `step` of what it found there (zeros at the first point), and at the last point
   writes half of it to the output buffer. -/
import proofs.«428971_j45028437131690_1_alg».proof.Proof.Gen.Kernel.Launch
import proofs.«428971_j45028437131690_1_alg».proof.Proof.Gen.Kernel.Skeleton
import proofs.«428971_j45028437131690_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's condition, from the grid coordinates: both coordinates are zero. -/
abbrev condFirst (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- The last conditional's condition: both coordinates are seven. -/
abbrev condLast (i : grid0.Coords) : Prop := k0_cond2 i = 1#1

/-- The first condition holds at the first grid point only. -/
theorem hcondFirst : ∀ t : Fin cfg0.N, condFirst (grid0.coords t) ↔ t.val = 0 :=
  (by decide +kernel : ∀ t : Fin grid0.N, condFirst (grid0.coords t) ↔ t.val = 0)
/-- The last condition holds at the last grid point only. -/
theorem hcondLast : ∀ t : Fin cfg0.N, condLast (grid0.coords t) ↔ t.val = 63 :=
  (by decide +kernel : ∀ t : Fin grid0.N, condLast (grid0.coords t) ↔ t.val = 63)

/-- What a grid point leaves in the accumulator, having found it at `s`, from the point's eight input blocks:
    `s` plus the sum over the block of the per-pair loss terms. -/
def step (x0 x1 : Vec F S512x512 .bf16) (x2 : Vec F S512x1 .f32) (x3 : Vec F S1x512 .f32) (x4 : Vec F S512x1 .i32) (x5 : Vec F S1x512 .i32)
    (x6 x7 : Vec F S1x1 .f32) (s : Vec F S1x1 .f32) : Vec F S1x1 .f32 :=
  k0_pay1 (k0_pay4 x0 x1 x2 x3) (k0_pay5 x4 x5) (k0_pay6 x0 x1 x2 x3) (k0_pay7 (F := F)) x6 x7 s

/-- The zero offsets of the whole-buffer rectangle, as a constant function. -/
theorem hz : (![0, 0] : Fin 2 → Nat) = fun _ => 0 := funext fun a => by fin_cases a <;> rfl

/-- The one whole-buffer rectangle of a one-element buffer covers it. -/
theorem cover_unit (p : Vec F S1x1 .f32) (L : List (View.Piece (Elt F) S1x1 .f32)) (y : S1x1.Idx) :
    ∃ pc ∈ ((⟨Rect.unit (s := S1x1) ![0, 0] S1x1.size inb_S1x1_S1x1_0_0, p⟩ : View.Piece (Elt F) S1x1 .f32) :: L), y ∈ pc.1.set :=
  ⟨_, List.mem_cons_self, View.mem_set_unit_zero hz inb_S1x1_S1x1_0_0 y⟩

set_option maxHeartbeats 1000000 in
/-- A middle grid point (neither the first nor the last): the body reads its eight input blocks and the
    accumulator at `s`, and leaves the accumulator at `step … s`; the inputs and the output buffer are as found. -/
theorem run_mid (c : Dev nD) (E : Set ℕ) (i : grid0.Coords) (h1 : ¬condFirst i) (h2 : ¬condLast i) (arg2 : Memref sig .tc .vmem S512x512 .bf16) (harg2 : arg2.IsWhole) (arg3 : Memref sig .tc .vmem S512x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole)
    (x0 x1 : Vec F S512x512 .bf16) (x2 : Vec F S512x1 .f32) (x3 : Vec F S1x512 .f32) (x4 : Vec F S512x1 .i32) (x5 : Vec F S1x512 .i32) (x6 x7 : Vec F S1x1 .f32) (o : Vec F S1x1 .f32) (s : Vec F S1x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare o ∗ owns (c : Thread nD τ) arg11 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare o ∗ owns (c : Thread nD τ) arg11 fullShare (step x0 x1 x2 x3 x4 x5 x6 x7 s)) -∗ K ⟨⟩))
      ⊢ wp frame (wpE (defs₀ (F := F)) Variants.none c none) E (cc0__loss_kernel i arg2 harg2 arg3 harg3 arg4 harg4 arg5 harg5 arg6 harg6 arg7 harg7 arg8 harg8 arg9 harg9 arg10 harg10 arg11 harg11) K := by
  simp only [cc0__loss_kernel_eq_skeleton]; unfold cc0__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  rw [View.read_writes_eq_canon _ _ _ (cover_unit _ _)]
  sl_unfold_words
  rw [View.canon_unit_zero hz]
  simp only [View.readAt_eq_ld, View.ld_unit_zero (S := S1x1) hz, View.ld_unit_zero (S := S512x512) hz, View.ld_unit_zero (S := S512x1) hz, View.ld_unit_zero (S := S1x512) hz]
  rfl

set_option maxHeartbeats 1000000 in
/-- The last grid point: as a middle point, and then the output buffer receives half of the accumulator's
    new contents, `k0_pay2 (step … s)`. -/
theorem run_last (c : Dev nD) (E : Set ℕ) (i : grid0.Coords) (h1 : ¬condFirst i) (h2 : condLast i) (arg2 : Memref sig .tc .vmem S512x512 .bf16) (harg2 : arg2.IsWhole) (arg3 : Memref sig .tc .vmem S512x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole)
    (x0 x1 : Vec F S512x512 .bf16) (x2 : Vec F S512x1 .f32) (x3 : Vec F S1x512 .f32) (x4 : Vec F S512x1 .i32) (x5 : Vec F S1x512 .i32) (x6 x7 : Vec F S1x1 .f32) (o : Vec F S1x1 .f32) (s : Vec F S1x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare o ∗ owns (c : Thread nD τ) arg11 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k0_pay2 (step x0 x1 x2 x3 x4 x5 x6 x7 s)) ∗ owns (c : Thread nD τ) arg11 fullShare (step x0 x1 x2 x3 x4 x5 x6 x7 s)) -∗ K ⟨⟩))
      ⊢ wp frame (wpE (defs₀ (F := F)) Variants.none c none) E (cc0__loss_kernel i arg2 harg2 arg3 harg3 arg4 harg4 arg5 harg5 arg6 harg6 arg7 harg7 arg8 harg8 arg9 harg9 arg10 harg10 arg11 harg11) K := by
  simp only [cc0__loss_kernel_eq_skeleton]; unfold cc0__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    sl_unfold_words
    rw [View.read_writes_eq_canon _ _ _ (cover_unit _ _), View.canon_unit_zero hz]
    simp only [View.readCov_unit_zero (S := S1x1) _ hz, View.readAt_eq_ld, View.ld_unit_zero (S := S1x1) hz, View.ld_unit_zero (S := S512x512) hz, View.ld_unit_zero (S := S512x1) hz, View.ld_unit_zero (S := S1x512) hz]
    rfl
  iexists _; isplitr
  swap; · iexact H9
  ipureintro
  sl_unfold_words
  rw [View.read_writes_eq_canon _ _ _ (cover_unit _ _), View.canon_unit_zero hz]
  simp only [View.readCov_unit_zero (S := S1x1) _ hz, View.readAt_eq_ld, View.ld_unit_zero (S := S1x1) hz, View.ld_unit_zero (S := S512x512) hz, View.ld_unit_zero (S := S512x1) hz, View.ld_unit_zero (S := S1x512) hz]
  rfl

set_option maxHeartbeats 1000000 in
/-- The first grid point: whatever the accumulator held, the body first stores zeros (`k0_pay3`) into it, so
    it is left at `step … k0_pay3`; the inputs and the output buffer are as found. -/
theorem run_first (c : Dev nD) (E : Set ℕ) (i : grid0.Coords) (h1 : condFirst i) (h2 : ¬condLast i) (arg2 : Memref sig .tc .vmem S512x512 .bf16) (harg2 : arg2.IsWhole) (arg3 : Memref sig .tc .vmem S512x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole)
    (x0 x1 : Vec F S512x512 .bf16) (x2 : Vec F S512x1 .f32) (x3 : Vec F S1x512 .f32) (x4 : Vec F S512x1 .i32) (x5 : Vec F S1x512 .i32) (x6 x7 : Vec F S1x1 .f32) (o : Vec F S1x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare o ∗ (∃ s, owns (c : Thread nD τ) arg11 fullShare s)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare o ∗ owns (c : Thread nD τ) arg11 fullShare (step x0 x1 x2 x3 x4 x5 x6 x7 (k0_pay3 (F := F)))) -∗ K ⟨⟩))
      ⊢ wp frame (wpE (defs₀ (F := F)) Variants.none c none) E (cc0__loss_kernel i arg2 harg2 arg3 harg3 arg4 harg4 arg5 harg5 arg6 harg6 arg7 harg7 arg8 harg8 arg9 harg9 arg10 harg10 arg11 harg11) K := by
  simp only [cc0__loss_kernel_eq_skeleton]; unfold cc0__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%s9, %f9, -, H9⟩, Hk⟩
  subst hf0 hf1 hf2 hf3 hf4 hf5 hf6 hf7 hf8
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  sl_unfold_words
  rw [View.read_writes_eq_canon _ _ _ (cover_unit _ _), View.canon_cons_unit_zero (S := S1x1) hz]
  simp only [View.readCov_unit_zero (S := S1x1) _ hz, View.readAt_eq_ld, View.ld_unit_zero (S := S1x1) hz, View.ld_unit_zero (S := S512x512) hz, View.ld_unit_zero (S := S512x1) hz, View.ld_unit_zero (S := S1x512) hz]
  rfl

end Cert.Kernel.Hand

end
-- ==== Proof.LibSharedFrame.lean ====
/-
  The frame run of a one-region program whose @main goes on after the region with straight lines of host operations,
  for a pipeline whose windows may SHARE an array (one array read through several input windows).

  When the windows' arrays are pairwise distinct, the buffers the lines after the region run within are the arrays, one
  points-to per window at the full share, and the bypassing buffers. When two windows sit on one array there is one
  buffer behind both, and each window holds only a part of its share: the set of DISTINCT buffers behind the arrays
  (`arrBufs`), each whole at the full share, takes the place of the per-window points-tos. Nothing about that set needs
  the map window ↦ array to be injective:

  * `held_tailRefs_shared`: the buffers a line after the region may touch, held at a valuation, are `arrBufs` and the
    bypassing buffers at that valuation;
  * `tail_seqs_shared`: the lines run from `arrBufs` and the bypassing buffers at a valuation `Wv` to `arrBufs` at `Wv`
    (no line writes an array) and the bypassing buffers at the lines' result from `Wv`;
  * `θ_run_frame_around_track_shared`: the frame run. How the full shares of the distinct buffers are dealt among the
    windows at the region's entry (`hsplit`), how the windows' parts join again at the region's exit into the distinct
    buffers at contents `VN` (`hjoin`) and split back (`hback`) are the certificate's to prove; `VN` agrees with the
    entry contents on every bypassing buffer (`hVN`). The run ends with every window's array at `Dat.arrAt … N` and every
    bypassing buffer at the lines' result from `VN`.
-/
import Idealize.ShloMosaic.Lib.Pipeline.FrameSuffix

noncomputable section

namespace Idealize.ShloMosaic

open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}
variable {Ix : Type} [DecidableEq Ix] {Name : Type} [DecidableEq Name] {U : Type} [URA U] {Lvl : Type}

namespace Pipeline

open Idealize.ShloMosaic.Rounds

section TailShared

variable {Λ₀ : SL.Sem.Labels} {P : Type}
variable (pcs : P → PCfg sig Λ₀ Val) (defs₀ : Defs nD τ sig Val Λ₀) (𝒱₀ : Variants)

local notation "𝕄" => MT nD τ sig Ix Val Name U Lvl
local notation "𝔻" => Pipeline.defs pcs defs₀
local notation "𝕍" => Variants.lift 𝒱₀

/-- The buffers a line after the region may touch, held at `Wv`, are the DISTINCT buffers behind the arrays and the
    bypassing buffers at `Wv`: no distinctness of the windows' arrays is needed, the buffers behind them being taken as
    a set. -/
theorem held_tailRefs_shared {gr : Nat} {W : Nat} (pre : Prefetch sig) (win : Fin W → WinSpec sig gr)
    (c : Dev nD) (Wv : Valuation τ sig Val) :
    (StableHlo.held (c.tc : Thread nD τ) (tailRefs sig pre win) Wv : sProp 𝕄)
      = iprop(arrBufs win c (fun b => Wv (Proc.devRef .tc b)) ∗ unscopedRestP pre win c (fun b => Wv (Proc.devRef .tc b))) := by
  classical
  have hdisj : Disjoint (Finset.univ.image (arrRef win)) (restRefsP sig pre win) :=
    Finset.disjoint_left.mpr fun b hb hr =>
      (Finset.mem_sdiff.mp (Finset.mem_sdiff.mp hr).1).2 hb
  unfold StableHlo.held tailRefs arrBufs unscopedRestP
  rw [bigSep_map, bigSep_union hdisj]
  rfl

/-- The buffers behind the arrays are held at contents that matter only at those buffers. -/
theorem arrBufs_congr {gr : Nat} {W : Nat} (win : Fin W → WinSpec sig gr) (c : Dev nD)
    (V V' : (b : Ref sig .tc) → Buf Val ((c.tc : Thread nD τ).loc b)) (h : ∀ w, V (arrRef win w) = V' (arrRef win w)) :
    (arrBufs win c V : sProp 𝕄) = arrBufs win c V' := by
  classical
  unfold arrBufs
  refine bigSep_congr fun b hb => ?_
  obtain ⟨w, -, rfl⟩ := Finset.mem_image.mp hb
  rw [h w]

/-- The bypassing buffers are held at contents that matter only at those buffers. -/
theorem unscopedRestP_congr {gr : Nat} {W : Nat} (pre : Prefetch sig) (win : Fin W → WinSpec sig gr) (c : Dev nD)
    (V V' : (b : Ref sig .tc) → Buf Val ((c.tc : Thread nD τ).loc b)) (h : ∀ b ∈ restRefsP sig pre win, V b = V' b) :
    (unscopedRestP pre win c V : sProp 𝕄) = unscopedRestP pre win c V' := by
  classical
  unfold unscopedRestP
  exact bigSep_congr fun b hb => by rw [h b hb]

set_option backward.isDefEq.respectTransparency.types false in
/-- THE LINES AFTER THE REGION when windows may share an array: from the boundary, the distinct buffers behind the arrays
    at `Wv` and the bypassing buffers at `Wv`, the lines run within those buffers (`hsub`: they touch no prefetched
    table), allocate nothing (`hfresh`) and write no array (`hkeep`); they hand back the distinct buffers behind the
    arrays still at `Wv` and the bypassing buffers at `StableHlo.after` of the lines from `Wv`. No distinctness of the
    windows' arrays is assumed. -/
theorem tail_seqs_shared [Preorder Lvl] {gr : Nat} {W : Nat} (pre : Prefetch sig) (win : Fin W → WinSpec sig gr)
    (c : Dev nD) (Wv : Valuation τ sig Val)
    (opss : List (List (HloOp τ sig Val)))
    (hsub : ∀ ops ∈ opss, ∀ op ∈ ops, op.bufs ⊆ tailRefs sig pre win)
    (hfresh : ∀ ops ∈ opss, ∀ op ∈ ops, op.fresh = ∅)
    (hkeep : ∀ ops ∈ opss, ∀ op ∈ ops, ∀ w, Proc.devRef .tc (arrRef win w) ∉ op.writes)
    (Q' : PUnit → sProp 𝕄) :
    iprop((iprop(arrBufs win c (fun b => Wv (Proc.devRef .tc b))
              ∗ unscopedRestP pre win c (fun b => StableHlo.after opss.flatten Wv (Proc.devRef .tc b))) -∗ Q' ⟨⟩)
        ∗ boundary (c.tc : Thread nD τ) ∗ arrBufs win c (fun b => Wv (Proc.devRef .tc b))
        ∗ unscopedRestP pre win c (fun b => Wv (Proc.devRef .tc b)))
      ⊢ wp frame (wpE 𝔻 𝕍 (c.tc : Thread nD τ) none) Set.univ (chain (opss.map StableHlo.seq)) Q' := by
  classical
  have hW := held_tailRefs_shared (Ix := Ix) (Name := Name) (U := U) (Lvl := Lvl) pre win c Wv
  have hW' : (StableHlo.held (c.tc : Thread nD τ) (tailRefs sig pre win) (StableHlo.after opss.flatten Wv) : sProp 𝕄)
      = iprop(arrBufs win c (fun b => Wv (Proc.devRef .tc b))
          ∗ unscopedRestP pre win c (fun b => StableHlo.after opss.flatten Wv (Proc.devRef .tc b))) := by
    rw [held_tailRefs_shared (Ix := Ix) (Name := Name) (U := U) (Lvl := Lvl) pre win c (StableHlo.after opss.flatten Wv)]
    congr 1
    exact arrBufs_congr win c _ _ fun w =>
      StableHlo.after_of_forall_not_mem _ _ fun op hop => by
        obtain ⟨ops, hops, hop'⟩ := List.mem_flatten.mp hop
        exact hkeep ops hops op hop' w
  rw [← List.append_nil (opss.map StableHlo.seq), ← hW]
  iintro ⟨Hk, Hb⟩
  iapply (wp_seqs_then pcs defs₀ 𝒱₀ c (tailRefs sig pre win) [] opss hsub hfresh Wv) $$ Hb
  iintro Hb
  rw [chain_nil, wp_pure, hW']
  imodintro
  iapply Hk
  icases Hb with ⟨-, H⟩
  iexact H

end TailShared

section FrameShared

variable {Λ₀ : SL.Sem.Labels} {P : Type} [Fintype P] [DecidableEq P] [∀ e, Nonempty (Val e)]

local notation "𝕄" => MT nD τ sig Unit Val ℕ (UR sig nD τ) ℕ

/-- THE FRAME RUN with a tracking invariant, for an @main that continues after the region with the host lines `opss`
    (`hmain`), of a pipeline that prefetches nothing and whose windows may SHARE an array (`hw : WinFacts₀`, no
    distinctness of the arrays). The certificate says how the distinct buffers behind the arrays, each whole at the
    full share at the entry contents `V₀`, make the proof data's arrays at the region's entry (`hsplit`), and names the
    contents `VN` at the region's EXIT: the proof data's arrays at the last point join into the distinct buffers at `VN`
    (`hjoin`) and split back (`hback`), and `VN` is `V₀` on every bypassing buffer (`hVN`). The lines touch only the
    arrays and the bypassing buffers (`hsub`), allocate nothing (`hfresh`) and write no array (`hkeep`). The run ends
    with every window's array at `Dat.arrAt … N` and every bypassing buffer at `StableHlo.after` of the lines from
    `VN`. -/
theorem θ_run_frame_around_track_shared
    (cfgs : P → Cfg sig Λ₀) (dats : (p : P) → (c : Dev nD) → Dat τ Val Unit ℕ (UR sig nD τ) ℕ (cfgs p) c) (p : P)
    (hcell : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ : Dev nD → Valuation τ sig Val) (opss : List (List (HloOp τ sig Val)))
    (hsub : ∀ ops ∈ opss, ∀ op ∈ ops, op.bufs ⊆ tailRefs sig Prefetch.none (cfgs p).spec)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (VN : Dev nD → Valuation τ sig Val)
    (hsplit : ∀ c, (arrBufs (cfgs p).spec c (fun b => V₀ c (Proc.devRef .tc b)) : sProp 𝕄) ⊢ (dats p c).arrays ((dats p c).arrAt · 0))
    (hjoin : ∀ c, (dats p c).arrays ((dats p c).arrAt · (cfgs p).N) ⊢ (arrBufs (cfgs p).spec c (fun b => VN c (Proc.devRef .tc b)) : sProp 𝕄))
    (hback : ∀ c, (arrBufs (cfgs p).spec c (fun b => VN c (Proc.devRef .tc b)) : sProp 𝕄) ⊢ (dats p c).arrays ((dats p c).arrAt · (cfgs p).N))
    (hVN : ∀ c, ∀ b ∈ restRefs sig (cfgs p).spec, VN c (Proc.devRef .tc b) = V₀ c (Proc.devRef .tc b))
    (hin : ∀ c, ΦA (cfgs p).spec c ⊢ (dats p c).Φ 0) (hout : ∀ c, (dats p c).Φ (Fin.last (cfgs p).N) ⊢ ΦA (cfgs p).spec c) :
    θ_run (Pipeline.defs (fun q => Cfg.toPCfg (Val := Val) (cfgs q)) defs₀) (onTc main) (s₀ m g)
      (fun r => ∀ c : Dev nD,
        (∀ w, r.2.mem (((cfgs p).spec w).arr.view.loc (c.tc : Thread nD τ)) = (dats p c).arrAt w (cfgs p).N)
        ∧ ∀ b ∈ restRefs sig (cfgs p).spec, r.2.mem ((c.tc : Thread nD τ).loc b) = StableHlo.after opss.flatten (VN c) (Proc.devRef .tc b)) := by
  classical
  -- the bypassing buffers at the region-entry contents are the same at the exit contents
  have hZ : ∀ c, (unscopedRestP (Ix := Unit) (Name := ℕ) (U := UR sig nD τ) (Lvl := ℕ) Prefetch.none (cfgs p).spec c (fun b => V₀ c (Proc.devRef .tc b)) : sProp 𝕄)
      = unscopedRestP Prefetch.none (cfgs p).spec c (fun b => VN c (Proc.devRef .tc b)) := fun c =>
    unscopedRestP_congr Prefetch.none (cfgs p).spec c _ _ fun b hb => (hVN c b (Finset.mem_sdiff.mp hb).1).symm
  exact θ_run_region_pf_tail (fun q => (cfgs q).toPCfg (Val := Val)) (fun q => (cfgs q).toPCfg_adm) dats () hcell p hw
    (OwnSemFacts.none (cfgs p).spec) (PreFacts.none _) emb₁ defs₀ 𝒱₀ m g main
    (fun _ => chain (opss.map StableHlo.seq)) hbody hne harr hstage howed
    (G := fun _ => iprop(emp)) (u₀ := initOf (cells cfgs hcell) (launchToks cfgs hcell))
    (hu₀ := by
      iintro Hu; imodintro
      isplitl [Hu]; · iapply (show (ownU _ : sProp 𝕄) ⊢ BI.own (emb₁ (initOf (cells cfgs hcell) (launchToks cfgs hcell))) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := hsplit)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none (cfgs p).spec c (fun b => V₀ c (Proc.devRef .tc b)))
    (Z' := fun c => unscopedRestP (Ix := Unit) (Name := ℕ) (U := UR sig nD τ) (Lvl := ℕ) Prefetch.none (cfgs p).spec c
      (fun b => StableHlo.after opss.flatten (VN c) (Proc.devRef .tc b)))
    (hX := fun c => by
      iintro ⟨HU, -, -, -, Hp, -⟩; imodintro
      isplitl [Hp]; · iexists _; iexact Hp
      iexact HU)
    (hin := fun c => (show _ ⊢ ΦA (cfgs p).spec c by
      unfold ΦA; iintro ⟨Hp, -, Hr⟩
      isplitl [Hr] <;> iassumption).trans (hin c))
    (hout := fun c => (hout c).trans (by
      rw [ownSems0_none]; unfold ΦA
      iintro ⟨Hr, Hp⟩
      isplitl [Hp]; · iexact Hp
      isplitr; · iempintro
      iexact Hr))
    (htail := fun c Q' => by
      iintro ⟨Hk, Hb, Ha, HZ⟩
      iapply (tail_seqs_shared (fun q => (cfgs q).toPCfg (Val := Val)) defs₀ 𝒱₀ Prefetch.none (cfgs p).spec c (VN c) opss hsub hfresh hkeep Q')
      isplitl [Hk]
      · iintro ⟨Ha2, Hu⟩
        iapply Hk
        isplitl [Ha2]
        · iapply (hback c); iexact Ha2
        · iexact Hu
      · isplitl [Hb]; · iexact Hb
        isplitl [Ha]
        · iapply (hjoin c); iexact Ha
        · iapply (Entails.of_eq (hZ c)); iexact HZ)
    (QY := fun c s => ∀ b ∈ restRefsP sig Prefetch.none (cfgs p).spec,
      s.mem ((c.tc : Thread nD τ).loc b) = StableHlo.after opss.flatten (VN c) (Proc.devRef .tc b))
    (hY := fun c s' => by
      iintro ⟨-, HU, HSI⟩
      unfold unscopedRestP
      imodintro
      iapply (pointsTo_read_all (restRefsP sig Prefetch.none (cfgs p).spec) (fun b => (c.tc : Thread nD τ).loc b)
        (fun b => StableHlo.after opss.flatten (VN c) (Proc.devRef .tc b)) s')
      isplitl [HU] <;> iassumption)
    (hQ := fun s h c => ⟨(h c).1, rest_of_restP Prefetch.none (cfgs p).spec (fun k => k.elim0) c
      (fun b => StableHlo.after opss.flatten (VN c) (Proc.devRef .tc b)) s (fun k => k.elim0) (h c).2.1 (h c).2.2⟩)

end FrameShared

end Pipeline

end Idealize.ShloMosaic
-- ==== Proof.Kernel.Frame.lean ====
/- The frame run of the kernel's program and what it leaves, generic in the float instance.

   The grid's 64 points are walked in order. Each point adds its block's sum of pair terms to a one-element accumulator
   that the kernel keeps between points (`accAt`: zero plus the first block's sum after point 0, then one more block's
   sum per point); the last point writes half the accumulator to the one-element result. The two feature windows read
   the same array, so each holds it at half the full share; every other array is held whole. The proof data name what
   each staging buffer holds after every point, the invariant carries the accumulator, and the run concludes that the
   result array holds half the last accumulator while every other array is as the host operations around the region
   leave it. -/
import proofs.«428971_j45028437131690_1_alg».proof.Proof.Kernel.Kit
import proofs.«428971_j45028437131690_1_alg».proof.Proof.Kernel.Body
import proofs.«428971_j45028437131690_1_alg».proof.Proof.LibSharedFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The accumulator, point by point -/

/-- The accumulator after point `n`: zero plus the first block's sum after point 0, one more block's sum per point. -/
def accAt (c : Dev nD) : (n : ℕ) → n < cfg0.N → Vec F S1x1 .f32
  | 0, h => step (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) (k0_pay3 (F := F))
  | n + 1, h => step (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (accAt c n (Nat.lt_of_succ_lt h))

theorem accAt_zero (c : Dev nD) (h : 0 < cfg0.N) :
    accAt m c 0 h = step (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) (k0_pay3 (F := F)) := rfl

theorem accAt_succ (c : Dev nD) (n : ℕ) (h : n + 1 < cfg0.N) :
    accAt m c (n + 1) h = step (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (accAt m c n (Nat.lt_of_succ_lt h)) := rfl

/-- At a point that is not the first the accumulator is the point's step of what the point before left. -/
theorem accAt_pos (c : Dev nD) (t : Fin cfg0.N) (hz : t.val ≠ 0) :
    accAt m c t.val t.isLt = step (iblk m c 0 t) (iblk m c 1 t) (iblk m c 2 t) (iblk m c 3 t) (iblk m c 4 t) (iblk m c 5 t) (iblk m c 6 t) (iblk m c 7 t) (accAt m c (t.val - 1) (by omega)) := by
  obtain ⟨n, hn⟩ := t
  cases n with
  | zero => exact absurd rfl hz
  | succ n => rfl

/-! ## The invariant between points -/

/-- Before point 0 the kernel's scratch holds anything; before point `n + 1` it holds the accumulator after point `n`. -/
def PhiS (c : Dev nD) : (n : ℕ) → n ≤ cfg0.N → sProp 𝕄
  | 0, _ => Pipeline.ΦA spec0 c
  | n + 1, h => iprop(iprop(owns (c : Thread nD τ) scM fullShare (accAt m c n (Nat.lt_of_succ_le h))) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The proof data -/

/-- The arrays as the region finds them; each input's buffer at its block after every point, the result's at half the
    accumulator; the invariant carrying the accumulator; the two feature windows at the two halves of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => k0_pay2 (accAt m c t.val t.isLt)
  Φ t := PhiS m c t.val (Nat.le_of_lt_succ t.isLt)
  q := qS
  owed _ := 0

theorem A_eq (c : Dev nD) (w : Fin cfg0.W) : (dats m 0 c).A w = V m c (Pipeline.arrRef spec0 w) := by
  dsimp only [dats]

theorem q_eq (c : Dev nD) : (dats m 0 c).q = qS := rfl

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = k0_pay2 (accAt m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves0_0 (c : Dev nD) (t : Fin cfg0.N) :
    (dats m 0 c).leavesExact 0 t = owns (c : Thread nD τ) (st0_0 t) fullShare (iblk m c 0 t) := by
  unfold Dat.leavesExact; rw [liveAt0_0 t, after0_0]
theorem leaves0_1 (c : Dev nD) (t : Fin cfg0.N) :
    (dats m 0 c).leavesExact 1 t = owns (c : Thread nD τ) (st0_1 t) fullShare (iblk m c 1 t) := by
  unfold Dat.leavesExact; rw [liveAt0_1 t, after0_1]
theorem leaves0_2 (c : Dev nD) (t : Fin cfg0.N) :
    (dats m 0 c).leavesExact 2 t = owns (c : Thread nD τ) (st0_2 t) fullShare (iblk m c 2 t) := by
  unfold Dat.leavesExact; rw [liveAt0_2 t, after0_2]
theorem leaves0_3 (c : Dev nD) (t : Fin cfg0.N) :
    (dats m 0 c).leavesExact 3 t = owns (c : Thread nD τ) (st0_3 t) fullShare (iblk m c 3 t) := by
  unfold Dat.leavesExact; rw [liveAt0_3 t, after0_3]
theorem leaves0_4 (c : Dev nD) (t : Fin cfg0.N) :
    (dats m 0 c).leavesExact 4 t = owns (c : Thread nD τ) (st0_4 t) fullShare (iblk m c 4 t) := by
  unfold Dat.leavesExact; rw [liveAt0_4 t, after0_4]
theorem leaves0_5 (c : Dev nD) (t : Fin cfg0.N) :
    (dats m 0 c).leavesExact 5 t = owns (c : Thread nD τ) (st0_5 t) fullShare (iblk m c 5 t) := by
  unfold Dat.leavesExact; rw [liveAt0_5 t, after0_5]
theorem leaves0_6 (c : Dev nD) (t : Fin cfg0.N) :
    (dats m 0 c).leavesExact 6 t = owns (c : Thread nD τ) (st0_6 t) fullShare (iblk m c 6 t) := by
  unfold Dat.leavesExact; rw [liveAt0_6 t, after0_6]
theorem leaves0_7 (c : Dev nD) (t : Fin cfg0.N) :
    (dats m 0 c).leavesExact 7 t = owns (c : Thread nD τ) (st0_7 t) fullShare (iblk m c 7 t) := by
  unfold Dat.leavesExact; rw [liveAt0_7 t, after0_7]

set_option maxHeartbeats 4000000 in
/-- The body at any point, by the point's control case: the inputs' buffers hold their blocks and come back so; the
    accumulator moves one step; the result's buffer is written at the last point and handed back as found elsewhere. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7,
    leaves0_0, leaves0_1, leaves0_2, leaves0_3, leaves0_4, leaves0_5, leaves0_6, leaves0_7]
  rw [show (dats m 0 c).owesAt () t.succ = (dats m 0 c).owesAt () t.castSucc from rfl]
  rw [show (dats m 0 c).Φ t.succ = PhiS m c (t.val + 1) t.isLt from rfl, PhiS_succ, PhiS_castSucc m c t]
  have hN : t.val < 64 := lt_of_lt_of_eq t.isLt (show cfg0.N = 64 from N_0)
  by_cases h0 : t.val = 0
  · -- the first point
    have h1 : condFirst (grid0.coords t) := (hcondFirst t).mpr h0
    have h2 : ¬condLast (grid0.coords t) := fun h => by have := (hcondLast t).mp h; omega
    rw [Dat.leavesExact_idle (dats m 0 c) 8 t (idleAt0_8 t (by omega)) (noFlush0_8 t (by omega))]
    rw [PhiS_zero m c _ _ h0, PhiA0_eq]
    rw [show accAt m c t.val t.isLt = step (iblk m c 0 t) (iblk m c 1 t) (iblk m c 2 t) (iblk m c 3 t) (iblk m c 4 t) (iblk m c 5 t) (iblk m c 6 t) (iblk m c 7 t) (k0_pay3 (F := F)) from by
      obtain ⟨n, hn⟩ := t; cases n with
      | zero => rfl
      | succ n => exact absurd h0 (Nat.succ_ne_zero n)]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_first c Set.univ (grid0.coords t) h1 h2 _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS]; · iexact HS
    iintro ⟨H0, H1, H2, H3, H4, H5, H6, H7, H8, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · have h1 : ¬condFirst (grid0.coords t) := fun h => h0 ((hcondFirst t).mp h)
    rw [PhiS_pos m c _ _ h0, accAt_pos m c t h0]
    by_cases h63 : t.val = 63
    · -- the last point
      have h2 : condLast (grid0.coords t) := (hcondLast t).mpr h63
      rw [show (dats m 0 c).leavesExact 8 t = owns (c : Thread nD τ) (st0_8 t) fullShare ((dats m 0 c).after 8 t) from by
        unfold Dat.leavesExact; rw [liveAt0_8 t h63], after0_8, accAt_pos m c t h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_last c Set.univ (grid0.coords t) h1 h2 _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · -- a middle point
      have h2 : ¬condLast (grid0.coords t) := fun h => h63 ((hcondLast t).mp h)
      rw [Dat.leavesExact_idle (dats m 0 c) 8 t (idleAt0_8 t h63) (noFlush0_8 t h63)]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_mid c Set.univ (grid0.coords t) h1 h2 _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives the scratch back, its contents forgotten. -/
theorem hout (c : Dev nD) : (dats m 0 c).Φ (Fin.last cfg0.N) ⊢ Pipeline.ΦA spec0 c := by
  have hN : cfg0.N = 64 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA0_eq]
  iintro ⟨HS, Hg⟩
  isplitl [HS]
  · iexists _; iexact HS
  iexact Hg

/-! ## The contents at the region's exit, and the run -/

/-- The buffers' contents when the region is left: as it found them, but the result's array at what the write-back left. -/
def VN (c : Dev nD) : Valuation τ sig (Elt F) :=
  Function.update (V0 m c) (Proc.devRef .tc main_v22) ((dats m 0 c).arrAt 8 cfg0.N)

/-- Each window's array at the exit contents is what the library computes from the proof data. -/
theorem arrAt_VN (c : Dev nD) (w : Fin cfg0.W) :
    (dats m 0 c).arrAt w cfg0.N = VN m c (Proc.devRef .tc (Pipeline.arrRef spec0 w)) := by
  unfold VN
  fin_cases w
  · rw [Function.update_of_ne (by exact StableHlo.devRef_ne_of_ne (by decide))]
    exact ((dats m 0 c).arrAt_in 0 rfl _).trans (A_eq m c 0)
  · rw [Function.update_of_ne (by exact StableHlo.devRef_ne_of_ne (by decide))]
    exact ((dats m 0 c).arrAt_in 1 rfl _).trans (A_eq m c 1)
  · rw [Function.update_of_ne (by exact StableHlo.devRef_ne_of_ne (by decide))]
    exact ((dats m 0 c).arrAt_in 2 rfl _).trans (A_eq m c 2)
  · rw [Function.update_of_ne (by exact StableHlo.devRef_ne_of_ne (by decide))]
    exact ((dats m 0 c).arrAt_in 3 rfl _).trans (A_eq m c 3)
  · rw [Function.update_of_ne (by exact StableHlo.devRef_ne_of_ne (by decide))]
    exact ((dats m 0 c).arrAt_in 4 rfl _).trans (A_eq m c 4)
  · rw [Function.update_of_ne (by exact StableHlo.devRef_ne_of_ne (by decide))]
    exact ((dats m 0 c).arrAt_in 5 rfl _).trans (A_eq m c 5)
  · rw [Function.update_of_ne (by exact StableHlo.devRef_ne_of_ne (by decide))]
    exact ((dats m 0 c).arrAt_in 6 rfl _).trans (A_eq m c 6)
  · rw [Function.update_of_ne (by exact StableHlo.devRef_ne_of_ne (by decide))]
    exact ((dats m 0 c).arrAt_in 7 rfl _).trans (A_eq m c 7)
  · exact (Function.update_self (β := fun b : DevRef τ sig => b.ty.Contents (Elt F)) (Proc.devRef .tc main_v22) ((dats m 0 c).arrAt 8 cfg0.N) (V0 m c)).symm

theorem VN_rest (c : Dev nD) : ∀ b ∈ Pipeline.restRefs sig spec0, VN m c (Proc.devRef .tc b) = V0 m c (Proc.devRef .tc b) := by
  intro b hb
  unfold VN
  refine Function.update_of_ne (fun e => ?_) _ _
  have hb' : b = main_v22 := Proc.devRef_injective _ e
  subst hb'
  exact (Finset.mem_sdiff.mp hb).2 (Finset.mem_image.mpr ⟨8, Finset.mem_univ _, rfl⟩)

set_option backward.isDefEq.respectTransparency.types false in
/-- Every weakly fair execution of @main terminates; the result's array ends at what the last point wrote back, every
    input's array as the region found it, every other buffer as the host operation after the region leaves it. -/
theorem run_main : θ_run defs (onTc (τ := τ) (main (F := F))) (s₀ m ρ)
    (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = StableHlo.after (List.flatten [hostOps1]) (VN m c) (Proc.devRef .tc b)) :=
  Pipeline.θ_run_frame_around_track_shared cfgs (dats m) (0 : Fin 1) cellOf_inj winFacts₀0 block_pos0 arr_whole0 stage_whole0
    defs₀ Variants.none m ρ main (fun c => (body_obligation m c).loose) (fun _ _ => rfl) (V0 m) [hostOps1] sfx_sub sfx_fresh sfx_keeps
    (hmain m Variants.none) (VN m)
    (fun c => arrays_of_arrBufs (dats m 0 c) (q_eq m c) (V m c) _ (fun w => A_eq m c w))
    (fun c => arrBufs_of_arrays (dats m 0 c) (q_eq m c) (fun b => VN m c (Proc.devRef .tc b)) _ (fun w => arrAt_VN m c w))
    (fun c => arrays_of_arrBufs (dats m 0 c) (q_eq m c) (fun b => VN m c (Proc.devRef .tc b)) _ (fun w => arrAt_VN m c w))
    (VN_rest m) (hin m) (hout m)

/-- The frame: both argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 main_arg0_mem_rest).trans (arg0_kept m c (VN m c) (VN_rest m c main_arg0 main_arg0_mem_rest)),
     ((h c).2 main_arg1 main_arg1_mem_rest).trans (arg1_kept m c (VN m c) (VN_rest m c main_arg1 main_arg1_mem_rest))⟩) (run_main m ρ)

end Cert.Kernel.Hand

end
-- ==== Proof.KernelIdeal.Kit.lean ====
import proofs.«428971_j45028437131690_1_alg».proof.Proof.Gen.KernelIdeal.Launch
import proofs.«428971_j45028437131690_1_alg».proof.Proof.Gen.KernelIdeal.Skeleton
import proofs.«428971_j45028437131690_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

/-! # The launch side of the program's one kernel region

@main is thirty host operations, one kernel region on an 8 × 8 grid with nine windows (eight inputs, one output) and
one scratch buffer, then one host operation (a reshape of the region's output). Windows 0 and 1 stage the same array.
This module states, for that region: the buffer contents at its entry and @main around it; that the line after it
touches only what it may; each input window's block at every grid point; where the output window is idle; the scratch
buffer in the region's invariant; what the line after the region leaves; and how the core's full share of the shared
array is dealt between the two windows on it and joined again. -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## @main around the region -/

/-- Core `c`'s buffer contents when the region is entered, as a valuation: after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations allocate nothing. -/
theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main around the region: the host operations before it, the region, the host operation after it. It reduces to
    the region continued by the later operation, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operation after the region touches the windows' arrays and the buffers that bypass the region only: its buffers
    are unscoped TensorCore references, and with nothing prefetched every such reference is one or the other. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 winFacts₀0.arr_unscoped]
  intro ops hops op hop
  simp only [List.mem_cons, List.mem_nil_iff, or_false] at hops
  rcases hops with rfl
  · exact Pipeline.sub_ucRefs op ((List.forall_iff_forall_mem.mp hostOps1_sub) op hop)

/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-- It writes no array of the windows: it writes only its own result, which is none of them. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No operation before the region writes an argument of @main. -/
theorem hostOps0_keeps_arg0 : ∀ op ∈ (hostOps0 : List (HloOp τ sig (Elt F))), Proc.devRef .tc main_arg0 ∉ op.writes := by
  intro op hop
  simp only [hostOps0, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.reshape_writes, Finset.mem_singleton] <;> exact StableHlo.devRef_ne_of_ne (by decide)

theorem hostOps0_keeps_arg1 : ∀ op ∈ (hostOps0 : List (HloOp τ sig (Elt F))), Proc.devRef .tc main_arg1 ∉ op.writes := by
  intro op hop
  simp only [hostOps0, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.reshape_writes, Finset.mem_singleton] <;> exact StableHlo.devRef_ne_of_ne (by decide)

/-- So the region is entered with the arguments at their launch contents. -/
theorem V_main_arg0 (c : Dev nD) : V m c main_arg0 = m ((c : Thread nD τ).loc main_arg0) := by
  show StableHlo.after hostOps0 (fun b => m (c, b)) (Proc.devRef .tc main_arg0) = _
  exact StableHlo.after_of_forall_not_mem _ _ hostOps0_keeps_arg0

theorem V_main_arg1 (c : Dev nD) : V m c main_arg1 = m ((c : Thread nD τ).loc main_arg1) := by
  show StableHlo.after hostOps0 (fun b => m (c, b)) (Proc.devRef .tc main_arg1) = _
  exact StableHlo.after_of_forall_not_mem _ _ hostOps0_keeps_arg1

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents (`hA`) and whose body leaves the block in place (`hafter`): unfetched, the
    block index has not moved. The window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the region-entry contents (`hA`) and whose body leaves the block in place (`hafter`): unfetched, the
    block index has not moved. The window is uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the region-entry contents (`hA`) and whose body leaves the block in place (`hafter`): unfetched, the
    block index has not moved. The window is uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is the region-entry contents (`hA`) and whose body leaves the block in place (`hafter`): unfetched, the
    block index has not moved. The window is uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof data
    whose array is the region-entry contents (`hA`) and whose body leaves the block in place (`hafter`): unfetched, the
    block index has not moved. The window is uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not, for any proof data
    whose array is the region-entry contents (`hA`) and whose body leaves the block in place (`hafter`): unfetched, the
    block index has not moved. The window is uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not, for any proof data
    whose array is the region-entry contents (`hA`) and whose body leaves the block in place (`hafter`): unfetched, the
    block index has not moved. The window is uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not, for any proof data
    whose array is the region-entry contents (`hA`) and whose body leaves the block in place (`hafter`): unfetched, the
    block index has not moved. The window is uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## Where the windows are idle -/

/-- An input window is never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel

/-- The output window is idle at every point but the last: the body stores into it at the last point only. -/
theorem idleAt0_8 : ∀ t : Fin cfg0.N, t.val ≠ 63 → cfg0.idle 8 (grid0.coords t) = true := by decide +kernel
/-- Nor is its block written back before the last point. -/
theorem noFlush0_8 : ∀ t : Fin cfg0.N, t.val ≠ 63 → (cfg0.win 8).flush t = false := by decide +kernel
/-- At the last point the output window is live. -/
theorem liveAt0_8 : ∀ t : Fin cfg0.N, t.val = 63 → cfg0.idle 8 (grid0.coords t) = false := by decide +kernel

/-! ## The scratch operand -/

/-- The scratch operand: a whole scoped buffer of the kernel's own, carried between grid points. -/
abbrev scM : Memref sig .tc .vmem S1x1 .f32 := Memref.whole cc0_scratch0

/-- The region's invariant with the scratch operand as a memref owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The lines after the region -/

/-- The arguments and the result of @main are unscoped and no window's array: they bypass the region. -/
theorem main_arg0_mem_rest : main_arg0 ∈ Pipeline.restRefs sig spec0 :=
  Pipeline.mem_restRefs_of main_arg0 rfl (by decide)

theorem main_arg1_mem_rest : main_arg1 ∈ Pipeline.restRefs sig spec0 :=
  Pipeline.mem_restRefs_of main_arg1 rfl (by decide)

theorem main_v23_mem_rest : main_v23 ∈ Pipeline.restRefs sig spec0 :=
  Pipeline.mem_restRefs_of main_v23 rfl (by decide)

/-- The line after the region writes neither argument of @main. -/
theorem hostOps1_keeps_arg0 : ∀ op ∈ (List.flatten [hostOps1] : List (HloOp τ sig (Elt F))), Proc.devRef .tc main_arg0 ∉ op.writes := by
  intro op hop
  simp only [hostOps1, List.flatten_cons, List.flatten_nil, List.append_nil, List.mem_cons, List.mem_nil_iff, or_false] at hop
  rcases hop with rfl
  simp only [StableHlo.reshape_writes, Finset.mem_singleton]; exact StableHlo.devRef_ne_of_ne (by decide)

theorem hostOps1_keeps_arg1 : ∀ op ∈ (List.flatten [hostOps1] : List (HloOp τ sig (Elt F))), Proc.devRef .tc main_arg1 ∉ op.writes := by
  intro op hop
  simp only [hostOps1, List.flatten_cons, List.flatten_nil, List.append_nil, List.mem_cons, List.mem_nil_iff, or_false] at hop
  rcases hop with rfl
  simp only [StableHlo.reshape_writes, Finset.mem_singleton]; exact StableHlo.devRef_ne_of_ne (by decide)

/-- An argument of @main holds its launch contents after the operation that follows the region, from any contents `VN`
    that agree with the region-entry contents at it. -/
theorem arg0_kept (c : Dev nD) (VN : Valuation τ sig (Elt F))
    (h0 : VN (Proc.devRef .tc main_arg0) = V0 m c (Proc.devRef .tc main_arg0)) :
    StableHlo.after (List.flatten [hostOps1]) VN (Proc.devRef .tc main_arg0) = m ((c.tc : Thread nD τ).loc main_arg0) :=
  (StableHlo.after_of_forall_not_mem _ VN hostOps1_keeps_arg0).trans (h0.trans (V_main_arg0 m c))

theorem arg1_kept (c : Dev nD) (VN : Valuation τ sig (Elt F))
    (h0 : VN (Proc.devRef .tc main_arg1) = V0 m c (Proc.devRef .tc main_arg1)) :
    StableHlo.after (List.flatten [hostOps1]) VN (Proc.devRef .tc main_arg1) = m ((c.tc : Thread nD τ).loc main_arg1) :=
  (StableHlo.after_of_forall_not_mem _ VN hostOps1_keeps_arg1).trans (h0.trans (V_main_arg1 m c))

/-- The result of @main after the line that follows the region: the region's output array, reshaped. -/
theorem result_after (VN : Valuation τ sig (Elt F)) :
    StableHlo.after (List.flatten [hostOps1]) VN (Proc.devRef .tc main_v23)
      = shapeCast S_ (VN (Proc.devRef .tc main_v22)) shapeCasts_S1x1_S_ := by
  show StableHlo.after hostOps1 VN (Proc.devRef .tc main_v23) = _
  after_results
  rfl

/-! ## The shares of the windows' arrays

Windows 0 and 1 stage one array. The core deals its full share of that array between them, a half each; every other
window holds its own array whole. -/

/-- The share each window holds of its array. -/
def qS : Fin cfg0.W → PosShare TreeShare := fun w =>
  if w = 0 then fullShare.left else if w = 1 then fullShare.right else fullShare

/-- The distinct buffers behind the windows' arrays. -/
theorem arrImage_eq : Finset.univ.image (Pipeline.arrRef spec0)
    = [main_v15, main_v16, main_v17, main_v18, main_v19, main_v20, main_v21, main_v22].toFinset := by decide

/-- The buffers behind the arrays, each whole at the full share, one by one. -/
theorem arrBufs_eq (c : Dev nD) (W : (b : Ref sig .tc) → Buf (Elt F) ((c.tc : Thread nD τ).loc b)) :
    (Pipeline.arrBufs spec0 c W : sProp 𝕄)
      = iprop((((c.tc : Thread nD τ).loc main_v15) ↦{fullShare} W main_v15) ∗ (((c.tc : Thread nD τ).loc main_v16) ↦{fullShare} W main_v16)
        ∗ (((c.tc : Thread nD τ).loc main_v17) ↦{fullShare} W main_v17) ∗ (((c.tc : Thread nD τ).loc main_v18) ↦{fullShare} W main_v18)
        ∗ (((c.tc : Thread nD τ).loc main_v19) ↦{fullShare} W main_v19) ∗ (((c.tc : Thread nD τ).loc main_v20) ↦{fullShare} W main_v20)
        ∗ (((c.tc : Thread nD τ).loc main_v21) ↦{fullShare} W main_v21) ∗ (((c.tc : Thread nD τ).loc main_v22) ↦{fullShare} W main_v22)) := by
  unfold Pipeline.arrBufs
  rw [bigSep_eq_bigSepL_of_eq _ arrImage_eq (by decide)]
  rfl

/-- The share the core holds each window's array at, when it deals them by `qS`: an output's is full. -/
def shareS (w : Fin cfg0.W) : PosShare TreeShare := if (cfg0.win w).isOut then fullShare else qS w

/-- The pipeline's arrays as whole buffers at the contents `W`, window by window. -/
theorem arrays_eq_bigSep {c : Dev nD} (dat : Dat τ (Elt F) Unit ℕ (UR sig nD τ) ℕ cfg0 c) (hq : dat.q = qS)
    (W : (b : Ref sig .tc) → Buf (Elt F) ((c.tc : Thread nD τ).loc b))
    (Fw : (w : Fin cfg0.W) → Buf (Elt F) ((cfg0.win w).arr.view.loc (c.tc : Thread nD τ)))
    (hF : ∀ w, Fw w = W (Pipeline.arrRef spec0 w)) :
    (dat.arrays Fw : sProp 𝕄)
      = bigSep Finset.univ fun w : Fin 9 => (((c.tc : Thread nD τ).loc (Pipeline.arrRef spec0 w)) ↦{shareS w} W (Pipeline.arrRef spec0 w) : sProp 𝕄) := by
  unfold Dat.arrays
  refine bigSep_congr fun w _ => ?_
  rw [(arr_whole0 w).set_eq_univ, hF w]
  unfold Dat.share shareS
  rw [hq]

/-- The same one by one: the shared array twice, a half each. -/
theorem arrays_eq {c : Dev nD} (dat : Dat τ (Elt F) Unit ℕ (UR sig nD τ) ℕ cfg0 c) (hq : dat.q = qS)
    (W : (b : Ref sig .tc) → Buf (Elt F) ((c.tc : Thread nD τ).loc b))
    (Fw : (w : Fin cfg0.W) → Buf (Elt F) ((cfg0.win w).arr.view.loc (c.tc : Thread nD τ)))
    (hF : ∀ w, Fw w = W (Pipeline.arrRef spec0 w)) :
    (dat.arrays Fw : sProp 𝕄)
      = iprop((((c.tc : Thread nD τ).loc main_v15) ↦{fullShare.left} W main_v15) ∗ (((c.tc : Thread nD τ).loc main_v15) ↦{fullShare.right} W main_v15)
        ∗ (((c.tc : Thread nD τ).loc main_v16) ↦{fullShare} W main_v16)
        ∗ (((c.tc : Thread nD τ).loc main_v17) ↦{fullShare} W main_v17) ∗ (((c.tc : Thread nD τ).loc main_v18) ↦{fullShare} W main_v18)
        ∗ (((c.tc : Thread nD τ).loc main_v19) ↦{fullShare} W main_v19) ∗ (((c.tc : Thread nD τ).loc main_v20) ↦{fullShare} W main_v20)
        ∗ (((c.tc : Thread nD τ).loc main_v21) ↦{fullShare} W main_v21) ∗ (((c.tc : Thread nD τ).loc main_v22) ↦{fullShare} W main_v22)) := by
  rw [arrays_eq_bigSep dat hq W Fw hF, bigSep_W0]
  rfl

theorem arrays_of_arrBufs {c : Dev nD} (dat : Dat τ (Elt F) Unit ℕ (UR sig nD τ) ℕ cfg0 c) (hq : dat.q = qS)
    (W : (b : Ref sig .tc) → Buf (Elt F) ((c.tc : Thread nD τ).loc b))
    (Fw : (w : Fin cfg0.W) → Buf (Elt F) ((cfg0.win w).arr.view.loc (c.tc : Thread nD τ)))
    (hF : ∀ w, Fw w = W (Pipeline.arrRef spec0 w)) :
    (Pipeline.arrBufs spec0 c W : sProp 𝕄) ⊢ dat.arrays Fw := by
  rw [arrBufs_eq, arrays_eq dat hq W Fw hF]
  iintro ⟨H15, H16, H17, H18, H19, H20, H21, H22⟩
  ihave H15 := (pointsTo_share (PosShare.mem_left_op_right fullShare)).1 $$ H15
  icases H15 with ⟨Ha, Hb⟩
  isplitl [Ha]; · iexact Ha
  isplitl [Hb]; · iexact Hb
  isplitl [H16]; · iexact H16
  isplitl [H17]; · iexact H17
  isplitl [H18]; · iexact H18
  isplitl [H19]; · iexact H19
  isplitl [H20]; · iexact H20
  isplitl [H21]; · iexact H21
  iexact H22

theorem arrBufs_of_arrays {c : Dev nD} (dat : Dat τ (Elt F) Unit ℕ (UR sig nD τ) ℕ cfg0 c) (hq : dat.q = qS)
    (W : (b : Ref sig .tc) → Buf (Elt F) ((c.tc : Thread nD τ).loc b))
    (Fw : (w : Fin cfg0.W) → Buf (Elt F) ((cfg0.win w).arr.view.loc (c.tc : Thread nD τ)))
    (hF : ∀ w, Fw w = W (Pipeline.arrRef spec0 w)) :
    dat.arrays Fw ⊢ (Pipeline.arrBufs spec0 c W : sProp 𝕄) := by
  rw [arrBufs_eq, arrays_eq dat hq W Fw hF]
  iintro ⟨Ha, Hb, H16, H17, H18, H19, H20, H21, H22⟩
  ihave H15 := (pointsTo_share (PosShare.mem_left_op_right fullShare)).2 $$ [Ha Hb]
  · isplitl [Ha] <;> iassumption
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

end Cert.KernelIdeal.Hand

end
-- ==== Proof.KernelIdeal.Body.lean ====
/- The kernel body's Hoare triples, one per control case of a grid point (first, middle, last), generic in the
   float instance: on whole staging memrefs holding the point's eight input blocks, the body leaves the carried
   one-element accumulator at `step` of what it found there (zeros at the first point), and at the last point
   writes half of it to the output buffer. -/
import proofs.«428971_j45028437131690_1_alg».proof.Proof.Gen.KernelIdeal.Launch
import proofs.«428971_j45028437131690_1_alg».proof.Proof.Gen.KernelIdeal.Skeleton
import proofs.«428971_j45028437131690_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's condition, from the grid coordinates: both coordinates are zero. -/
abbrev condFirst (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- The last conditional's condition: both coordinates are seven. -/
abbrev condLast (i : grid0.Coords) : Prop := k0_cond2 i = 1#1

/-- The first condition holds at the first grid point only. -/
theorem hcondFirst : ∀ t : Fin cfg0.N, condFirst (grid0.coords t) ↔ t.val = 0 :=
  (by decide +kernel : ∀ t : Fin grid0.N, condFirst (grid0.coords t) ↔ t.val = 0)
/-- The last condition holds at the last grid point only. -/
theorem hcondLast : ∀ t : Fin cfg0.N, condLast (grid0.coords t) ↔ t.val = 63 :=
  (by decide +kernel : ∀ t : Fin grid0.N, condLast (grid0.coords t) ↔ t.val = 63)

/-- What a grid point leaves in the accumulator, having found it at `s`, from the point's eight input blocks:
    `s` plus the sum over the block of the per-pair loss terms. -/
def step (x0 x1 : Vec F S512x512 .bf16) (x2 : Vec F S512x1 .f32) (x3 : Vec F S1x512 .f32) (x4 : Vec F S512x1 .i32) (x5 : Vec F S1x512 .i32)
    (x6 x7 : Vec F S1x1 .f32) (s : Vec F S1x1 .f32) : Vec F S1x1 .f32 :=
  k0_pay1 (k0_pay4 x0 x1 x2 x3) (k0_pay5 x4 x5) (k0_pay6 x0 x1 x2 x3) (k0_pay7 (F := F)) x6 x7 s

/-- The zero offsets of the whole-buffer rectangle, as a constant function. -/
theorem hz : (![0, 0] : Fin 2 → Nat) = fun _ => 0 := funext fun a => by fin_cases a <;> rfl

/-- The one whole-buffer rectangle of a one-element buffer covers it. -/
theorem cover_unit (p : Vec F S1x1 .f32) (L : List (View.Piece (Elt F) S1x1 .f32)) (y : S1x1.Idx) :
    ∃ pc ∈ ((⟨Rect.unit (s := S1x1) ![0, 0] S1x1.size inb_S1x1_S1x1_0_0, p⟩ : View.Piece (Elt F) S1x1 .f32) :: L), y ∈ pc.1.set :=
  ⟨_, List.mem_cons_self, View.mem_set_unit_zero hz inb_S1x1_S1x1_0_0 y⟩

set_option maxHeartbeats 1000000 in
/-- A middle grid point (neither the first nor the last): the body reads its eight input blocks and the
    accumulator at `s`, and leaves the accumulator at `step … s`; the inputs and the output buffer are as found. -/
theorem run_mid (c : Dev nD) (E : Set ℕ) (i : grid0.Coords) (h1 : ¬condFirst i) (h2 : ¬condLast i) (arg2 : Memref sig .tc .vmem S512x512 .bf16) (harg2 : arg2.IsWhole) (arg3 : Memref sig .tc .vmem S512x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole)
    (x0 x1 : Vec F S512x512 .bf16) (x2 : Vec F S512x1 .f32) (x3 : Vec F S1x512 .f32) (x4 : Vec F S512x1 .i32) (x5 : Vec F S1x512 .i32) (x6 x7 : Vec F S1x1 .f32) (o : Vec F S1x1 .f32) (s : Vec F S1x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare o ∗ owns (c : Thread nD τ) arg11 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare o ∗ owns (c : Thread nD τ) arg11 fullShare (step x0 x1 x2 x3 x4 x5 x6 x7 s)) -∗ K ⟨⟩))
      ⊢ wp frame (wpE (defs₀ (F := F)) Variants.none c none) E (cc0__loss_kernel i arg2 harg2 arg3 harg3 arg4 harg4 arg5 harg5 arg6 harg6 arg7 harg7 arg8 harg8 arg9 harg9 arg10 harg10 arg11 harg11) K := by
  simp only [cc0__loss_kernel_eq_skeleton]; unfold cc0__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  rw [View.read_writes_eq_canon _ _ _ (cover_unit _ _)]
  sl_unfold_words
  rw [View.canon_unit_zero hz]
  simp only [View.readAt_eq_ld, View.ld_unit_zero (S := S1x1) hz, View.ld_unit_zero (S := S512x512) hz, View.ld_unit_zero (S := S512x1) hz, View.ld_unit_zero (S := S1x512) hz]
  rfl

set_option maxHeartbeats 1000000 in
/-- The last grid point: as a middle point, and then the output buffer receives half of the accumulator's
    new contents, `k0_pay2 (step … s)`. -/
theorem run_last (c : Dev nD) (E : Set ℕ) (i : grid0.Coords) (h1 : ¬condFirst i) (h2 : condLast i) (arg2 : Memref sig .tc .vmem S512x512 .bf16) (harg2 : arg2.IsWhole) (arg3 : Memref sig .tc .vmem S512x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole)
    (x0 x1 : Vec F S512x512 .bf16) (x2 : Vec F S512x1 .f32) (x3 : Vec F S1x512 .f32) (x4 : Vec F S512x1 .i32) (x5 : Vec F S1x512 .i32) (x6 x7 : Vec F S1x1 .f32) (o : Vec F S1x1 .f32) (s : Vec F S1x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare o ∗ owns (c : Thread nD τ) arg11 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k0_pay2 (step x0 x1 x2 x3 x4 x5 x6 x7 s)) ∗ owns (c : Thread nD τ) arg11 fullShare (step x0 x1 x2 x3 x4 x5 x6 x7 s)) -∗ K ⟨⟩))
      ⊢ wp frame (wpE (defs₀ (F := F)) Variants.none c none) E (cc0__loss_kernel i arg2 harg2 arg3 harg3 arg4 harg4 arg5 harg5 arg6 harg6 arg7 harg7 arg8 harg8 arg9 harg9 arg10 harg10 arg11 harg11) K := by
  simp only [cc0__loss_kernel_eq_skeleton]; unfold cc0__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    sl_unfold_words
    rw [View.read_writes_eq_canon _ _ _ (cover_unit _ _), View.canon_unit_zero hz]
    simp only [View.readCov_unit_zero (S := S1x1) _ hz, View.readAt_eq_ld, View.ld_unit_zero (S := S1x1) hz, View.ld_unit_zero (S := S512x512) hz, View.ld_unit_zero (S := S512x1) hz, View.ld_unit_zero (S := S1x512) hz]
    rfl
  iexists _; isplitr
  swap; · iexact H9
  ipureintro
  sl_unfold_words
  rw [View.read_writes_eq_canon _ _ _ (cover_unit _ _), View.canon_unit_zero hz]
  simp only [View.readCov_unit_zero (S := S1x1) _ hz, View.readAt_eq_ld, View.ld_unit_zero (S := S1x1) hz, View.ld_unit_zero (S := S512x512) hz, View.ld_unit_zero (S := S512x1) hz, View.ld_unit_zero (S := S1x512) hz]
  rfl

set_option maxHeartbeats 1000000 in
/-- The first grid point: whatever the accumulator held, the body first stores zeros (`k0_pay3`) into it, so
    it is left at `step … k0_pay3`; the inputs and the output buffer are as found. -/
theorem run_first (c : Dev nD) (E : Set ℕ) (i : grid0.Coords) (h1 : condFirst i) (h2 : ¬condLast i) (arg2 : Memref sig .tc .vmem S512x512 .bf16) (harg2 : arg2.IsWhole) (arg3 : Memref sig .tc .vmem S512x512 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole)
    (x0 x1 : Vec F S512x512 .bf16) (x2 : Vec F S512x1 .f32) (x3 : Vec F S1x512 .f32) (x4 : Vec F S512x1 .i32) (x5 : Vec F S1x512 .i32) (x6 x7 : Vec F S1x1 .f32) (o : Vec F S1x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare o ∗ (∃ s, owns (c : Thread nD τ) arg11 fullShare s)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare o ∗ owns (c : Thread nD τ) arg11 fullShare (step x0 x1 x2 x3 x4 x5 x6 x7 (k0_pay3 (F := F)))) -∗ K ⟨⟩))
      ⊢ wp frame (wpE (defs₀ (F := F)) Variants.none c none) E (cc0__loss_kernel i arg2 harg2 arg3 harg3 arg4 harg4 arg5 harg5 arg6 harg6 arg7 harg7 arg8 harg8 arg9 harg9 arg10 harg10 arg11 harg11) K := by
  simp only [cc0__loss_kernel_eq_skeleton]; unfold cc0__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%s9, %f9, -, H9⟩, Hk⟩
  subst hf0 hf1 hf2 hf3 hf4 hf5 hf6 hf7 hf8
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  sl_unfold_words
  rw [View.read_writes_eq_canon _ _ _ (cover_unit _ _), View.canon_cons_unit_zero (S := S1x1) hz]
  simp only [View.readCov_unit_zero (S := S1x1) _ hz, View.readAt_eq_ld, View.ld_unit_zero (S := S1x1) hz, View.ld_unit_zero (S := S512x512) hz, View.ld_unit_zero (S := S512x1) hz, View.ld_unit_zero (S := S1x512) hz]
  rfl

end Cert.KernelIdeal.Hand

end
-- ==== Proof.KernelIdeal.Frame.lean ====
/- The frame run of the kernel's program and what it leaves, generic in the float instance.

   The grid's 64 points are walked in order. Each point adds its block's sum of pair terms to a one-element accumulator
   that the kernel keeps between points (`accAt`: zero plus the first block's sum after point 0, then one more block's
   sum per point); the last point writes half the accumulator to the one-element result. The two feature windows read
   the same array, so each holds it at half the full share; every other array is held whole. The proof data name what
   each staging buffer holds after every point, the invariant carries the accumulator, and the run concludes that the
   result array holds half the last accumulator while every other array is as the host operations around the region
   leave it. -/
import proofs.«428971_j45028437131690_1_alg».proof.Proof.KernelIdeal.Kit
import proofs.«428971_j45028437131690_1_alg».proof.Proof.KernelIdeal.Body
import proofs.«428971_j45028437131690_1_alg».proof.Proof.LibSharedFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The accumulator, point by point -/

/-- The accumulator after point `n`: zero plus the first block's sum after point 0, one more block's sum per point. -/
def accAt (c : Dev nD) : (n : ℕ) → n < cfg0.N → Vec F S1x1 .f32
  | 0, h => step (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) (k0_pay3 (F := F))
  | n + 1, h => step (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (accAt c n (Nat.lt_of_succ_lt h))

theorem accAt_zero (c : Dev nD) (h : 0 < cfg0.N) :
    accAt m c 0 h = step (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) (k0_pay3 (F := F)) := rfl

theorem accAt_succ (c : Dev nD) (n : ℕ) (h : n + 1 < cfg0.N) :
    accAt m c (n + 1) h = step (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (accAt m c n (Nat.lt_of_succ_lt h)) := rfl

/-- At a point that is not the first the accumulator is the point's step of what the point before left. -/
theorem accAt_pos (c : Dev nD) (t : Fin cfg0.N) (hz : t.val ≠ 0) :
    accAt m c t.val t.isLt = step (iblk m c 0 t) (iblk m c 1 t) (iblk m c 2 t) (iblk m c 3 t) (iblk m c 4 t) (iblk m c 5 t) (iblk m c 6 t) (iblk m c 7 t) (accAt m c (t.val - 1) (by omega)) := by
  obtain ⟨n, hn⟩ := t
  cases n with
  | zero => exact absurd rfl hz
  | succ n => rfl

/-! ## The invariant between points -/

/-- Before point 0 the kernel's scratch holds anything; before point `n + 1` it holds the accumulator after point `n`. -/
def PhiS (c : Dev nD) : (n : ℕ) → n ≤ cfg0.N → sProp 𝕄
  | 0, _ => Pipeline.ΦA spec0 c
  | n + 1, h => iprop(iprop(owns (c : Thread nD τ) scM fullShare (accAt m c n (Nat.lt_of_succ_le h))) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The proof data -/

/-- The arrays as the region finds them; each input's buffer at its block after every point, the result's at half the
    accumulator; the invariant carrying the accumulator; the two feature windows at the two halves of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => k0_pay2 (accAt m c t.val t.isLt)
  Φ t := PhiS m c t.val (Nat.le_of_lt_succ t.isLt)
  q := qS
  owed _ := 0

theorem A_eq (c : Dev nD) (w : Fin cfg0.W) : (dats m 0 c).A w = V m c (Pipeline.arrRef spec0 w) := by
  dsimp only [dats]

theorem q_eq (c : Dev nD) : (dats m 0 c).q = qS := rfl

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = k0_pay2 (accAt m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves0_0 (c : Dev nD) (t : Fin cfg0.N) :
    (dats m 0 c).leavesExact 0 t = owns (c : Thread nD τ) (st0_0 t) fullShare (iblk m c 0 t) := by
  unfold Dat.leavesExact; rw [liveAt0_0 t, after0_0]
theorem leaves0_1 (c : Dev nD) (t : Fin cfg0.N) :
    (dats m 0 c).leavesExact 1 t = owns (c : Thread nD τ) (st0_1 t) fullShare (iblk m c 1 t) := by
  unfold Dat.leavesExact; rw [liveAt0_1 t, after0_1]
theorem leaves0_2 (c : Dev nD) (t : Fin cfg0.N) :
    (dats m 0 c).leavesExact 2 t = owns (c : Thread nD τ) (st0_2 t) fullShare (iblk m c 2 t) := by
  unfold Dat.leavesExact; rw [liveAt0_2 t, after0_2]
theorem leaves0_3 (c : Dev nD) (t : Fin cfg0.N) :
    (dats m 0 c).leavesExact 3 t = owns (c : Thread nD τ) (st0_3 t) fullShare (iblk m c 3 t) := by
  unfold Dat.leavesExact; rw [liveAt0_3 t, after0_3]
theorem leaves0_4 (c : Dev nD) (t : Fin cfg0.N) :
    (dats m 0 c).leavesExact 4 t = owns (c : Thread nD τ) (st0_4 t) fullShare (iblk m c 4 t) := by
  unfold Dat.leavesExact; rw [liveAt0_4 t, after0_4]
theorem leaves0_5 (c : Dev nD) (t : Fin cfg0.N) :
    (dats m 0 c).leavesExact 5 t = owns (c : Thread nD τ) (st0_5 t) fullShare (iblk m c 5 t) := by
  unfold Dat.leavesExact; rw [liveAt0_5 t, after0_5]
theorem leaves0_6 (c : Dev nD) (t : Fin cfg0.N) :
    (dats m 0 c).leavesExact 6 t = owns (c : Thread nD τ) (st0_6 t) fullShare (iblk m c 6 t) := by
  unfold Dat.leavesExact; rw [liveAt0_6 t, after0_6]
theorem leaves0_7 (c : Dev nD) (t : Fin cfg0.N) :
    (dats m 0 c).leavesExact 7 t = owns (c : Thread nD τ) (st0_7 t) fullShare (iblk m c 7 t) := by
  unfold Dat.leavesExact; rw [liveAt0_7 t, after0_7]

set_option maxHeartbeats 4000000 in
/-- The body at any point, by the point's control case: the inputs' buffers hold their blocks and come back so; the
    accumulator moves one step; the result's buffer is written at the last point and handed back as found elsewhere. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7,
    leaves0_0, leaves0_1, leaves0_2, leaves0_3, leaves0_4, leaves0_5, leaves0_6, leaves0_7]
  rw [show (dats m 0 c).owesAt () t.succ = (dats m 0 c).owesAt () t.castSucc from rfl]
  rw [show (dats m 0 c).Φ t.succ = PhiS m c (t.val + 1) t.isLt from rfl, PhiS_succ, PhiS_castSucc m c t]
  have hN : t.val < 64 := lt_of_lt_of_eq t.isLt (show cfg0.N = 64 from N_0)
  by_cases h0 : t.val = 0
  · -- the first point
    have h1 : condFirst (grid0.coords t) := (hcondFirst t).mpr h0
    have h2 : ¬condLast (grid0.coords t) := fun h => by have := (hcondLast t).mp h; omega
    rw [Dat.leavesExact_idle (dats m 0 c) 8 t (idleAt0_8 t (by omega)) (noFlush0_8 t (by omega))]
    rw [PhiS_zero m c _ _ h0, PhiA0_eq]
    rw [show accAt m c t.val t.isLt = step (iblk m c 0 t) (iblk m c 1 t) (iblk m c 2 t) (iblk m c 3 t) (iblk m c 4 t) (iblk m c 5 t) (iblk m c 6 t) (iblk m c 7 t) (k0_pay3 (F := F)) from by
      obtain ⟨n, hn⟩ := t; cases n with
      | zero => rfl
      | succ n => exact absurd h0 (Nat.succ_ne_zero n)]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_first c Set.univ (grid0.coords t) h1 h2 _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS]; · iexact HS
    iintro ⟨H0, H1, H2, H3, H4, H5, H6, H7, H8, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · have h1 : ¬condFirst (grid0.coords t) := fun h => h0 ((hcondFirst t).mp h)
    rw [PhiS_pos m c _ _ h0, accAt_pos m c t h0]
    by_cases h63 : t.val = 63
    · -- the last point
      have h2 : condLast (grid0.coords t) := (hcondLast t).mpr h63
      rw [show (dats m 0 c).leavesExact 8 t = owns (c : Thread nD τ) (st0_8 t) fullShare ((dats m 0 c).after 8 t) from by
        unfold Dat.leavesExact; rw [liveAt0_8 t h63], after0_8, accAt_pos m c t h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_last c Set.univ (grid0.coords t) h1 h2 _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · -- a middle point
      have h2 : ¬condLast (grid0.coords t) := fun h => h63 ((hcondLast t).mp h)
      rw [Dat.leavesExact_idle (dats m 0 c) 8 t (idleAt0_8 t h63) (noFlush0_8 t h63)]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_mid c Set.univ (grid0.coords t) h1 h2 _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives the scratch back, its contents forgotten. -/
theorem hout (c : Dev nD) : (dats m 0 c).Φ (Fin.last cfg0.N) ⊢ Pipeline.ΦA spec0 c := by
  have hN : cfg0.N = 64 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA0_eq]
  iintro ⟨HS, Hg⟩
  isplitl [HS]
  · iexists _; iexact HS
  iexact Hg

/-! ## The contents at the region's exit, and the run -/

/-- The buffers' contents when the region is left: as it found them, but the result's array at what the write-back left. -/
def VN (c : Dev nD) : Valuation τ sig (Elt F) :=
  Function.update (V0 m c) (Proc.devRef .tc main_v22) ((dats m 0 c).arrAt 8 cfg0.N)

/-- Each window's array at the exit contents is what the library computes from the proof data. -/
theorem arrAt_VN (c : Dev nD) (w : Fin cfg0.W) :
    (dats m 0 c).arrAt w cfg0.N = VN m c (Proc.devRef .tc (Pipeline.arrRef spec0 w)) := by
  unfold VN
  fin_cases w
  · rw [Function.update_of_ne (by exact StableHlo.devRef_ne_of_ne (by decide))]
    exact ((dats m 0 c).arrAt_in 0 rfl _).trans (A_eq m c 0)
  · rw [Function.update_of_ne (by exact StableHlo.devRef_ne_of_ne (by decide))]
    exact ((dats m 0 c).arrAt_in 1 rfl _).trans (A_eq m c 1)
  · rw [Function.update_of_ne (by exact StableHlo.devRef_ne_of_ne (by decide))]
    exact ((dats m 0 c).arrAt_in 2 rfl _).trans (A_eq m c 2)
  · rw [Function.update_of_ne (by exact StableHlo.devRef_ne_of_ne (by decide))]
    exact ((dats m 0 c).arrAt_in 3 rfl _).trans (A_eq m c 3)
  · rw [Function.update_of_ne (by exact StableHlo.devRef_ne_of_ne (by decide))]
    exact ((dats m 0 c).arrAt_in 4 rfl _).trans (A_eq m c 4)
  · rw [Function.update_of_ne (by exact StableHlo.devRef_ne_of_ne (by decide))]
    exact ((dats m 0 c).arrAt_in 5 rfl _).trans (A_eq m c 5)
  · rw [Function.update_of_ne (by exact StableHlo.devRef_ne_of_ne (by decide))]
    exact ((dats m 0 c).arrAt_in 6 rfl _).trans (A_eq m c 6)
  · rw [Function.update_of_ne (by exact StableHlo.devRef_ne_of_ne (by decide))]
    exact ((dats m 0 c).arrAt_in 7 rfl _).trans (A_eq m c 7)
  · exact (Function.update_self (β := fun b : DevRef τ sig => b.ty.Contents (Elt F)) (Proc.devRef .tc main_v22) ((dats m 0 c).arrAt 8 cfg0.N) (V0 m c)).symm

theorem VN_rest (c : Dev nD) : ∀ b ∈ Pipeline.restRefs sig spec0, VN m c (Proc.devRef .tc b) = V0 m c (Proc.devRef .tc b) := by
  intro b hb
  unfold VN
  refine Function.update_of_ne (fun e => ?_) _ _
  have hb' : b = main_v22 := Proc.devRef_injective _ e
  subst hb'
  exact (Finset.mem_sdiff.mp hb).2 (Finset.mem_image.mpr ⟨8, Finset.mem_univ _, rfl⟩)

set_option backward.isDefEq.respectTransparency.types false in
/-- Every weakly fair execution of @main terminates; the result's array ends at what the last point wrote back, every
    input's array as the region found it, every other buffer as the host operation after the region leaves it. -/
theorem run_main : θ_run defs (onTc (τ := τ) (main (F := F))) (s₀ m ρ)
    (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = StableHlo.after (List.flatten [hostOps1]) (VN m c) (Proc.devRef .tc b)) :=
  Pipeline.θ_run_frame_around_track_shared cfgs (dats m) (0 : Fin 1) cellOf_inj winFacts₀0 block_pos0 arr_whole0 stage_whole0
    defs₀ Variants.none m ρ main (fun c => (body_obligation m c).loose) (fun _ _ => rfl) (V0 m) [hostOps1] sfx_sub sfx_fresh sfx_keeps
    (hmain m Variants.none) (VN m)
    (fun c => arrays_of_arrBufs (dats m 0 c) (q_eq m c) (V m c) _ (fun w => A_eq m c w))
    (fun c => arrBufs_of_arrays (dats m 0 c) (q_eq m c) (fun b => VN m c (Proc.devRef .tc b)) _ (fun w => arrAt_VN m c w))
    (fun c => arrays_of_arrBufs (dats m 0 c) (q_eq m c) (fun b => VN m c (Proc.devRef .tc b)) _ (fun w => arrAt_VN m c w))
    (VN_rest m) (hin m) (hout m)

/-- The frame: both argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 main_arg0_mem_rest).trans (arg0_kept m c (VN m c) (VN_rest m c main_arg0 main_arg0_mem_rest)),
     ((h c).2 main_arg1 main_arg1_mem_rest).trans (arg1_kept m c (VN m c) (VN_rest m c main_arg1 main_arg1_mem_rest))⟩) (run_main m ρ)

end Cert.KernelIdeal.Hand

end
-- ==== Proof.Spec.lean ====
/-
  The loss both programs compute, as one function of the labels and the features over the extended reals.

  For labels y : 4096 words and features x : 4096 × 512, write ‖x_a‖² for the sum of squares of row a and
  ⟨x_a, x_b⟩ for the inner product of rows a and b. The clamped squared distance of a pair (a, b) is
  d²(a, b) = max(‖x_b‖² + ‖x_a‖² − 2⟨x_a, x_b⟩, 0); its hinge is h(a, b) = max(1 − √(d²(a, b) + ε), 0). A pair with
  equal labels contributes d²(a, b) / e, a pair with different labels h(a, b)² / n, where e is the number of ordered
  pairs with equal labels and n = 4096² − e the number of the others; the loss is half the sum over all ordered pairs.
  The float constants are kept as the words the programs print, so that both sides carry the same terms.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The labels, one 32-bit word per row. -/
abbrev Lab := (⟨1, ![4096]⟩ : Shape).Idx → BitVec 32
/-- The features, one extended real per row and column. -/
abbrev Feat := (⟨2, ![4096, 512]⟩ : Shape).Idx → EReal

/-- The squared norm of row `a`. -/
def sqn (x : Feat) (a : Fin 4096) : EReal := ∑ k : Fin 512, x (ix2 a k) * x (ix2 a k)

/-- The inner product of rows `a` and `b`. -/
def gram (x : Feat) (a b : Fin 4096) : EReal := ∑ k : Fin 512, x (ix2 a k) * x (ix2 b k)

/-- The clamped squared distance of rows `a` and `b`: max(‖x_b‖² + ‖x_a‖² − 2⟨x_a, x_b⟩, 0). -/
def d2 (x : Feat) (a b : Fin 4096) : EReal :=
  max ((sqn x b + sqn x a) - Ideal.ofBits .f32 0x40000000#32 * gram x a b) (Ideal.ofBits .f32 0x00000000#32)

/-- The hinge of a pair: max(1 − √(d² + ε), 0). -/
def hinge (x : Feat) (a b : Fin 4096) : EReal :=
  max (Ideal.ofBits .f32 0x3F800000#32 - Ideal.sqrt (d2 x a b + Ideal.ofBits .f32 0x26901D7D#32)) (Ideal.ofBits .f32 0x00000000#32)

/-- One ordered pair's term, the two denominators given: d² / e for equal labels, hinge² / n otherwise. -/
def pair (y : Lab) (x : Feat) (e n : EReal) (a b : Fin 4096) : EReal :=
  if y (ix1 a) = y (ix1 b) then Ideal.div (d2 x a b) e else Ideal.div (hinge x a b * hinge x a b) n

/-- Half the sum of the pairs' terms, the two denominators given. -/
def loss (y : Lab) (x : Feat) (e n : EReal) : EReal :=
  Ideal.ofBits .f32 0x3F000000#32 * ∑ a : Fin 4096, ∑ b : Fin 4096, pair y x e n a b

/-- The number of ordered pairs of rows with equal labels. -/
def eqPairs (y : Lab) : ℕ := (Finset.univ.filter fun p : Fin 4096 × Fin 4096 => y (ix1 p.1) = y (ix1 p.2)).card

/-- The denominator of the equal-label pairs, as an extended real. -/
def eqDen (y : Lab) : EReal := ((eqPairs y : ℝ) : EReal)

/-- The denominator of the other pairs: 4096² less the equal-label pairs. -/
def neqDen (y : Lab) : EReal := (((16777216 : ℝ) - (eqPairs y : ℝ) : ℝ) : EReal)

/-- The loss. -/
def theLoss (y : Lab) (x : Feat) : EReal := loss y x (eqDen y) (neqDen y)

/-- There are at most 4096² ordered pairs. -/
theorem eqPairs_le (y : Lab) : eqPairs y ≤ 16777216 := by
  unfold eqPairs
  refine (Finset.card_le_univ _).trans ?_
  simp [Fintype.card_prod]

end Cert.Spec

end
-- ==== Proof.KernelCounts.lean ====
/-
  The two denominators of the contrastive loss, as the host operations compute them from the labels.

  The labels are 4096 words of 32 bits. A negative label is wrapped by adding 100; a one is added, at the
  wrapped label, into 100 buckets that start at zero; e is the sum of the squares of the buckets and
  n = 4096 · 4096 − e. When every label lies in [0, 100) nothing is wrapped, bucket c holds the number k_c of
  rows labelled c, every row lies in exactly one bucket, and ∑_c k_c² counts the ordered pairs of rows with
  equal labels: the pairs are partitioned by their common label, and the pairs with common label c are the
  product of the rows labelled c with itself. So e and n are the denominators of the specification.
-/
import proofs.«428971_j45028437131690_1_alg».proof.Proof.Spec
import proofs.«428971_j45028437131690_1_alg».proof.Proof.Gen.KernelIdeal
import Idealize.ShloMosaic.PureOps.Ideal.Laws
import Idealize.ShloMosaic.Lib.ValueIdx
import Idealize.ShloMosaic.Lib.ValueIdxRank1
import Idealize.ShloMosaic.Lib.StableHlo.Predicate

noncomputable section

namespace Cert.KernelCounts

open Idealize.ShloMosaic Idealize.ShloMosaic.ValueIdx
open Cert.KernelIdeal Cert.KernelIdeal.Facts₀

/-! ## The host operations, as pure terms at the extended reals -/

/-- The labels with the negative ones wrapped: y' = if y < 0 then y + 100 else y. -/
def wrapY (y : IVec S4096 32) : IVec S4096 32 :=
  select (cmpi .slt y (broadcastInDim S4096 ![] bcast_S_S4096 (constantI S_ 32 0#32)))
    (addi y (broadcastInDim S4096 ![] bcast_S_S4096 (constantI S_ 32 100#32))) y

/-- The 100 buckets: zero, plus a one for every row at its wrapped label. -/
def cnt (y : IVec S4096 32) : FVec Ideal S100 .f32 :=
  Host.scatterAdd scatter_S100_S4096x1_S4096_n_0_0_1
    (broadcastInDim S100 ![] bcast_S_S100 (constant (F := Ideal) S_ .f32 0x00000000#32))
    (broadcastInDim S4096x1 ![0] bcast_S4096_S4096x1_0 (wrapY y))
    (broadcastInDim S4096 ![] bcast_S_S4096 (constant (F := Ideal) S_ .f32 0x3F800000#32))

/-- e: the sum over the buckets of their squares. -/
def eqK (y : IVec S4096 32) : FVec Ideal S_ .f32 :=
  Host.reduceAdd (mulf (cnt y) (cnt y)) (constant (F := Ideal) S_ .f32 0x00000000#32) reducesTo_S100_S_d0 h_S_

/-- n = 4096 · 4096 − e. -/
def neqK (y : IVec S4096 32) : FVec Ideal S_ .f32 :=
  subf (mulf (constant (F := Ideal) S_ .f32 0x45800000#32) (constant (F := Ideal) S_ .f32 0x45800000#32)) (eqK y)

/-! ## The two float words -/

/-- The word 0x3F800000 denotes 1. -/
theorem ofBits_one : Ideal.ofBits .f32 0x3F800000#32 = 1 := by
  simp [Ideal.ofBits, Ideal.ieee, -EReal.coe_mul]; norm_num

/-- The word 0x45800000 denotes 4096. -/
theorem ofBits_4096 : Ideal.ofBits .f32 0x45800000#32 = ((4096 : ℝ) : EReal) := by
  simp [Ideal.ofBits, Ideal.ieee, -EReal.coe_mul]; norm_num

/-! ## No label in [0, 100) is wrapped -/

/-- A label below 100 is not negative as a signed word, so the wrap leaves it. -/
theorem wrapY_eq (y : IVec S4096 32) (hy : ∀ i : S4096.Idx, (y i).toNat < 100) : wrapY y = y := by
  funext i
  have h0 : IntOp.cmpi .slt (y i) 0#32 = 0#1 := by
    refine eq_zero_of_ne_one fun h => ?_
    have := (StableHlo.Predicate.slt_iff_toNat (a := y i) (b := 0#32) (by have := hy i; omega) (by decide)).1 h
    simp at this
  show Scalar.select (IntOp.cmpi .slt (y i) 0#32) (IntOp.addi (y i) 100#32) (y i) = y i
  rw [h0, select_zero]

/-! ## Where a row's one lands -/

/-- The scatter's dimension numbers: one operand axis, indexed by the one component of each row's index vector. -/
abbrev scat := scatter_S100_S4096x1_S4096_n_0_0_1

/-- Row j's start on the one bucket axis is its index word, read signed. -/
theorem start_eq (j : S4096.Idx) (idx : IVec S4096x1 32) :
    scat.start j idx 0 = (idx (ix2 (j 0) (0 : Fin 1))).toInt := by
  unfold ScatterDims.start
  rw [dif_pos (show (0 : Fin 1) ∈ scat.scatterDimsToOperandDims from List.mem_singleton.mpr rfl)]
  have hsi : scat.siIdx j ⟨List.idxOf (0 : Fin 1) scat.scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]; rfl

/-- The bucket axis is an inserted window axis: the window coordinate on it is 0. -/
theorem window_eq (j : S4096.Idx) : scat.window j 0 = 0 := by
  unfold ScatterDims.window
  rw [dif_neg (by decide)]

/-- Row j lands in bucket i exactly when its index word, read signed, is i. -/
theorem resultIdx_iff (j : S4096.Idx) (idx : IVec S4096x1 32) (i : S100.Idx) :
    scat.resultIdx? j idx = some i ↔ (idx (ix2 (j 0) (0 : Fin 1))).toInt = ((i 0).val : Int) := by
  unfold ScatterDims.resultIdx?
  have hs := start_eq j idx
  have hw := window_eq j
  have hi : (i 0).val < 100 := (i 0).isLt
  constructor
  · intro h
    split at h
    · next hb =>
      have := congrFun (Option.some.inj h) 0
      have hv := congrArg Fin.val this
      simp only [hs, hw] at hv hb
      have := hb 0
      simp only [hs, hw] at this
      omega
    · exact absurd h (by simp)
  · intro h
    have hb : ∀ a, 0 ≤ scat.start j idx a + scat.window j a ∧ scat.start j idx a + scat.window j a < S100.size a := by
      intro a
      obtain rfl : a = 0 := Subsingleton.elim _ _
      rw [hs, hw, h]
      show 0 ≤ ((i 0).val : Int) + ((0 : Nat) : Int) ∧ ((i 0).val : Int) + ((0 : Nat) : Int) < (100 : Nat)
      omega
    rw [dif_pos hb]
    congr 1
    funext a
    obtain rfl : a = 0 := Subsingleton.elim _ _
    refine Fin.ext ?_
    show (scat.start j idx 0 + scat.window j 0).toNat = (i 0).val
    rw [hs, hw, h]
    omega

/-- The labels laid out as a column read, at row j, the label of row j. -/
theorem idx_apply (v : IVec S4096 32) (j : S4096.Idx) :
    broadcastInDim S4096x1 ![0] bcast_S4096_S4096x1_0 v (ix2 (j 0) (0 : Fin 1)) = v j := by
  simp only [broadcastInDim]
  congr 1
  funext a
  obtain rfl : a = 0 := Subsingleton.elim _ _
  apply Fin.ext
  split
  · next h1 => exact absurd h1 (by decide)
  · rfl

/-! ## The buckets are the label counts -/

/-- k_c: the number of rows whose label word reads c. -/
def kc (y : IVec S4096 32) (c : ℕ) : ℕ := (Finset.univ.filter fun a : Fin 4096 => (y (ix1 a)).toNat = c).card

/-- Bucket c is a sum of ones over the rows labelled c: it is k_c. -/
theorem cnt_apply (y : IVec S4096 32) (hy : ∀ a : Fin 4096, (y (ix1 a)).toNat < 100) (c : S100.Idx) :
    cnt y c = ((kc y (c 0).val : ℝ) : EReal) := by
  have hy' : ∀ i : S4096.Idx, (y i).toNat < 100 := fun i => by rw [eq_ix1 i]; exact hy _
  have h1 : cnt y c = Ideal.ofBits .f32 0x00000000#32
      + ∑ j ∈ Finset.univ.filter (fun j : S4096.Idx =>
          scat.resultIdx? j (broadcastInDim S4096x1 ![0] bcast_S4096_S4096x1_0 (wrapY y)) = some c),
        Ideal.ofBits .f32 0x3F800000#32 := rfl
  rw [h1, Ideal.ofBits_zero_f32, ofBits_one, zero_add, Finset.sum_const, nsmul_one, EReal.coe_coe_eq_natCast]
  congr 1
  unfold kc
  refine Finset.card_equiv idxEquiv1 fun j => ?_
  simp only [Finset.mem_filter, Finset.mem_univ, true_and]
  rw [resultIdx_iff, idx_apply, wrapY_eq y hy', StableHlo.Predicate.toInt_eq_toNat_of_lt (by have := hy' j; omega)]
  have : y (ix1 (idxEquiv1 j)) = y j := congrArg y (eq_ix1 j).symm
  rw [this]
  exact Int.natCast_inj

/-- The inclusion of the reals in the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- e = ∑_c k_c². -/
theorem eqK_apply (y : IVec S4096 32) (hy : ∀ a : Fin 4096, (y (ix1 a)).toNat < 100) (i : S_.Idx) :
    eqK y i = (((∑ c : Fin 100, kc y c.val * kc y c.val : ℕ) : ℝ) : EReal) := by
  have h1 : eqK y i = Ideal.hostReduceAdd reducesTo_S100_S_d0 (mulf (cnt y) (cnt y)) (Ideal.ofBits .f32 0x00000000#32) i := rfl
  rw [h1, Ideal.hostReduceAdd_total reducesTo_S100_S_d0 (fun b => b.elim0), Ideal.ofBits_zero_f32, zero_add]
  rw [← Equiv.sum_comp (idxEquiv1 (n := 100)).symm]
  push_cast
  rw [coe_sum]
  refine Finset.sum_congr rfl fun c _ => ?_
  rw [mulf_apply, cnt_apply y hy, EReal.coe_mul]
  rfl

/-! ## ∑_c k_c² counts the ordered pairs with equal labels -/

/-- The pairs with equal labels, partitioned by the common label c, are for each c the product of the rows
    labelled c with itself; every label is below 100, so no pair is missed. -/
theorem sum_sq_eq_pairs (y : Cert.Spec.Lab) (hy : ∀ a : Fin 4096, (y (ix1 a)).toNat < 100) :
    ∑ c : Fin 100, kc y c.val * kc y c.val = Cert.Spec.eqPairs y := by
  classical
  let lab : Fin 4096 → Fin 100 := fun a => ⟨(y (ix1 a)).toNat, hy a⟩
  have hlab : ∀ a b, y (ix1 a) = y (ix1 b) ↔ lab a = lab b := fun a b => by
    constructor
    · intro h; exact Fin.ext (congrArg BitVec.toNat h)
    · intro h
      have h2 : (lab a).val = (lab b).val := congrArg Fin.val h
      exact BitVec.eq_of_toNat_eq h2
  unfold Cert.Spec.eqPairs
  rw [Finset.card_eq_sum_card_fiberwise (f := fun p : Fin 4096 × Fin 4096 => lab p.1) (t := Finset.univ)
    (fun _ _ => Finset.mem_coe.2 (Finset.mem_univ _))]
  refine Finset.sum_congr rfl fun c _ => ?_
  have hk : kc y c.val = (Finset.univ.filter fun a : Fin 4096 => lab a = c).card := by
    unfold kc
    refine congrArg Finset.card (Finset.filter_congr fun a _ => ?_)
    exact ⟨fun h => Fin.ext h, fun h => congrArg Fin.val h⟩
  rw [hk, ← Finset.card_product]
  refine congrArg Finset.card ?_
  ext p
  simp only [Finset.mem_product, Finset.mem_filter, Finset.mem_univ, true_and, hlab]
  constructor
  · rintro ⟨h1, h2⟩; exact ⟨h1.trans h2.symm, h1⟩
  · rintro ⟨h1, h2⟩; exact ⟨h2, h1 ▸ h2⟩

/-! ## The two denominators -/

/-- With every label in [0, 100), e is the specification's denominator of the equal-label pairs. -/
theorem eqK_eq (y : Cert.Spec.Lab) (hy : ∀ a : Fin 4096, (y (ValueIdx.ix1 a)).toNat < 100) :
    eqK y = fun _ => Cert.Spec.eqDen y := by
  funext i
  rw [eqK_apply y hy i, sum_sq_eq_pairs y hy]
  rfl

/-- … and n = 4096 · 4096 − e is its denominator of the other pairs. -/
theorem neqK_eq (y : Cert.Spec.Lab) (hy : ∀ a : Fin 4096, (y (ValueIdx.ix1 a)).toNat < 100) :
    neqK y = fun _ => Cert.Spec.neqDen y := by
  funext i
  have h1 : neqK y i = Ideal.ofBits .f32 0x45800000#32 * Ideal.ofBits .f32 0x45800000#32 - eqK y i := rfl
  rw [h1, eqK_eq y hy, ofBits_4096, ← EReal.coe_mul]
  show ((4096 * 4096 : ℝ) : EReal) - ((Cert.Spec.eqPairs y : ℝ) : EReal) = _
  rw [← EReal.coe_sub]
  unfold Cert.Spec.neqDen
  generalize (Cert.Spec.eqPairs y : ℝ) = e
  norm_num

end Cert.KernelCounts

end
-- ==== Proof.KernelHost.lean ====
/-
  What the kernel region's eight input arrays hold when the region is entered, at the extended reals, as functions of
  the program's two arguments: the labels y (4096 words) and the features x (4096 × 512).

  The host operations before the region compute, from x, the vector of squared row norms ‖x_a‖² = ∑ₖ x(a, k)² (the
  sum is started from the zero word, which denotes 0) and hand it to the region twice, as a column and as a row;
  they hand over x itself narrowed to a 16-bit format, which changes nothing at the extended reals; the labels as a
  column and as a row; and the two denominators, each as a one-element array: the sum over the label buckets of
  the squared bucket counts and 4096 · 4096 less that sum, which for labels in [0, 100) are the number of ordered
  pairs of rows with equal labels and the number of the other pairs. A cast between shapes keeps row-major
  positions, so a column reads the vector at the row coordinate, a row reads it at the column coordinate, and a
  one-element array reads the scalar.
-/
import proofs.«428971_j45028437131690_1_alg».proof.Proof.KernelIdeal.Kit
import proofs.«428971_j45028437131690_1_alg».proof.Proof.KernelCounts
import proofs.«428971_j45028437131690_1_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelHost

open Cert.KernelIdeal Cert.KernelIdeal.Gen Cert.KernelIdeal.Hand Idealize.ShloMosaic
open Idealize.ShloMosaic.TcCoe Idealize.SL.Sem Idealize.ShloMosaic.StableHlo Idealize.ShloMosaic.ValueIdx

variable (m : (ℓ : Loc nD τ sig) → Buf (Elt Ideal) ℓ) (c : Dev nD)

/-! ## Reshapes of a vector or a scalar read at an index -/

section Reshape
variable {α : Type}

/-- A vector of length `n` cast to `[n, 1]` reads, at `j`, the vector at `j`'s row: the two row-major positions are
    `j₀` and `j₀ · 1 + j₁` with `j₁ < 1`. -/
theorem shapeCast_col_apply {n : ℕ} (v : (⟨1, ![n]⟩ : Shape).Idx → α) (h : (⟨1, ![n]⟩ : Shape).ShapeCasts ⟨2, ![n, 1]⟩)
    (j : (⟨2, ![n, 1]⟩ : Shape).Idx) : shapeCast ⟨2, ![n, 1]⟩ v h j = v (ix1 (j 0)) :=
  shapeCast_apply v h j (ix1 (j 0)) (by
    have h1 : (j 1).val < 1 := (j 1).isLt
    rw [Shape.rowMajor_val_two, Shape.rowMajor_val_one]
    show (j 0).val = (j 0).val * 1 + (j 1).val
    omega)

/-- A vector of length `n` cast to `[1, n]` reads, at `j`, the vector at `j`'s column: the two row-major positions are
    `j₁` and `j₀ · n + j₁` with `j₀ < 1`. -/
theorem shapeCast_row_apply {n : ℕ} (v : (⟨1, ![n]⟩ : Shape).Idx → α) (h : (⟨1, ![n]⟩ : Shape).ShapeCasts ⟨2, ![1, n]⟩)
    (j : (⟨2, ![1, n]⟩ : Shape).Idx) : shapeCast ⟨2, ![1, n]⟩ v h j = v (ix1 (j 1)) :=
  shapeCast_apply v h j (ix1 (j 1)) (by
    have h0 : (j 0).val < 1 := (j 0).isLt
    rw [Shape.rowMajor_val_two, Shape.rowMajor_val_one]
    show (j 1).val = (j 0).val * n + (j 1).val
    have : (j 0).val = 0 := by omega
    rw [this, Nat.zero_mul, Nat.zero_add])

/-- A scalar cast to `[1, 1]` reads the scalar everywhere: the scalar shape has one index. -/
theorem shapeCast_scalar_apply (v : (⟨0, ![]⟩ : Shape).Idx → α) (h : (⟨0, ![]⟩ : Shape).ShapeCasts ⟨2, ![1, 1]⟩)
    (j : (⟨2, ![1, 1]⟩ : Shape).Idx) : shapeCast ⟨2, ![1, 1]⟩ v h j = v ix0 := by
  unfold shapeCast
  exact congrArg v (funext fun a => a.elim0)

end Reshape

/-! ## The row sums of squares -/

/-- The sum over a row of the squares of its entries, started from the zero word, is the row's squared norm:
    0 + ∑ₖ x(a, k) · x(a, k). -/
theorem rowSum_apply (x : Cert.Spec.Feat) (a : Fin 4096) :
    Host.reduceAdd (F := Ideal) (mulf (x : FVec Ideal S4096x512 .f32) x) (constant (F := Ideal) S_ .f32 0x00000000#32)
      reducesTo_S4096x512_S4096_d1 h_S_ (ix1 a) = Cert.Spec.sqn x a := by
  simp only [Host.reduceAdd, Ideal.hostReduceAdd_def]
  rw [Ideal.hostReduceAdd_single reducesTo_S4096x512_S4096_d1 (by decide)]
  rw [constant_apply, Ideal.ofBits_zero_f32, zero_add]
  unfold Cert.Spec.sqn
  refine Finset.sum_congr rfl fun k _ => ?_
  rw [mulf_apply]
  have e : ∀ (h : S4096x512.Reduces [1] S4096), h.lift (ix1 a) k = ix2 a ⟨k.val, k.isLt⟩ := fun h =>
    funext fun d => Fin.ext (by match d with | ⟨0, _⟩ => rfl | ⟨1, _⟩ => rfl)
  rw [e]
  rfl

/-! ## The eight arrays as the host operations leave them

Each array is first named as the term of the host operations that write it, over the two arguments at launch; the
term is then read at an index. -/

/-- The features narrowed to the 16-bit format: at the extended reals a change of format is the identity. -/
theorem V_v15 : (V m c main_v15 : S4096x512.Idx → EReal) = m ((c : Thread nD τ).loc main_arg1) := by
  show StableHlo.after hostOps0 (fun b => m (c, b)) (Proc.devRef .tc main_v15) = _
  after_results
  rfl

/-- The column of squared norms is the vector of row sums of squares cast to `[4096, 1]`. -/
theorem V_v16_term : (V m c main_v16 : S4096x1.Idx → EReal)
    = shapeCast S4096x1 (Host.reduceAdd (F := Ideal) (mulf (m ((c : Thread nD τ).loc main_arg1) : FVec Ideal S4096x512 .f32) (m ((c : Thread nD τ).loc main_arg1)))
        (constant (F := Ideal) S_ .f32 0x00000000#32) reducesTo_S4096x512_S4096_d1 h_S_) shapeCasts_S4096_S4096x1 := by
  show StableHlo.after hostOps0 (fun b => m (c, b)) (Proc.devRef .tc main_v16) = _
  after_results
  rfl

/-- The row of squared norms is the same vector cast to `[1, 4096]`. -/
theorem V_v17_term : (V m c main_v17 : S1x4096.Idx → EReal)
    = shapeCast S1x4096 (Host.reduceAdd (F := Ideal) (mulf (m ((c : Thread nD τ).loc main_arg1) : FVec Ideal S4096x512 .f32) (m ((c : Thread nD τ).loc main_arg1)))
        (constant (F := Ideal) S_ .f32 0x00000000#32) reducesTo_S4096x512_S4096_d1 h_S_) shapeCasts_S4096_S1x4096 := by
  show StableHlo.after hostOps0 (fun b => m (c, b)) (Proc.devRef .tc main_v17) = _
  after_results
  rfl

/-- The column of labels is the labels cast to `[4096, 1]`. -/
theorem V_v18_term : (V m c main_v18 : S4096x1.Idx → BitVec 32)
    = shapeCast S4096x1 (m ((c : Thread nD τ).loc main_arg0) : S4096.Idx → BitVec 32) shapeCasts_S4096_S4096x1 := by
  show StableHlo.after hostOps0 (fun b => m (c, b)) (Proc.devRef .tc main_v18) = _
  after_results
  rfl

/-- The row of labels is the labels cast to `[1, 4096]`. -/
theorem V_v19_term : (V m c main_v19 : S1x4096.Idx → BitVec 32)
    = shapeCast S1x4096 (m ((c : Thread nD τ).loc main_arg0) : S4096.Idx → BitVec 32) shapeCasts_S4096_S1x4096 := by
  show StableHlo.after hostOps0 (fun b => m (c, b)) (Proc.devRef .tc main_v19) = _
  after_results
  rfl

/-- The first denominator's array is the sum of the squared bucket counts of the labels, cast to `[1, 1]`. -/
theorem V_v20_term : (V m c main_v20 : S1x1.Idx → EReal)
    = shapeCast S1x1 (Cert.KernelCounts.eqK (m ((c : Thread nD τ).loc main_arg0))) shapeCasts_S_S1x1 := by
  show StableHlo.after hostOps0 (fun b => m (c, b)) (Proc.devRef .tc main_v20) = _
  after_results
  rfl

/-- The second denominator's array is 4096 · 4096 less that sum, cast to `[1, 1]`. -/
theorem V_v21_term : (V m c main_v21 : S1x1.Idx → EReal)
    = shapeCast S1x1 (Cert.KernelCounts.neqK (m ((c : Thread nD τ).loc main_arg0))) shapeCasts_S_S1x1 := by
  show StableHlo.after hostOps0 (fun b => m (c, b)) (Proc.devRef .tc main_v21) = _
  after_results
  rfl

/-- The column of squared norms holds, in row `a`, the squared norm of row `a` of the features. -/
theorem V_v16 : (V m c main_v16 : S4096x1.Idx → EReal)
    = fun ix => Cert.Spec.sqn (m ((c : Thread nD τ).loc main_arg1)) (ix 0) := by
  rw [V_v16_term]
  funext j
  rw [shapeCast_col_apply]
  exact rowSum_apply _ (j 0)

/-- The row of squared norms holds, in column `b`, the squared norm of row `b` of the features. -/
theorem V_v17 : (V m c main_v17 : S1x4096.Idx → EReal)
    = fun ix => Cert.Spec.sqn (m ((c : Thread nD τ).loc main_arg1)) (ix 1) := by
  rw [V_v17_term]
  funext j
  rw [shapeCast_row_apply]
  exact rowSum_apply _ (j 1)

/-- The column of labels holds, in row `a`, the label of row `a`. -/
theorem V_v18 : (V m c main_v18 : S4096x1.Idx → BitVec 32)
    = fun ix => (m ((c : Thread nD τ).loc main_arg0) : Cert.Spec.Lab) (ix1 (ix 0)) := by
  rw [V_v18_term]
  funext j
  exact shapeCast_col_apply _ _ j

/-- The row of labels holds, in column `b`, the label of row `b`. -/
theorem V_v19 : (V m c main_v19 : S1x4096.Idx → BitVec 32)
    = fun ix => (m ((c : Thread nD τ).loc main_arg0) : Cert.Spec.Lab) (ix1 (ix 1)) := by
  rw [V_v19_term]
  funext j
  exact shapeCast_row_apply _ _ j

/-- With every label in [0, 100), the first denominator's array holds the number of ordered pairs of rows with equal
    labels. -/
theorem V_v20 (hy : ∀ a : Fin 4096, ((m ((c : Thread nD τ).loc main_arg0) : Cert.Spec.Lab) (ix1 a)).toNat < 100) :
    (V m c main_v20 : S1x1.Idx → EReal) = fun _ => Cert.Spec.eqDen (m ((c : Thread nD τ).loc main_arg0)) := by
  rw [V_v20_term]
  funext j
  rw [shapeCast_scalar_apply, Cert.KernelCounts.eqK_eq _ hy]

/-- With every label in [0, 100), the second denominator's array holds 4096 · 4096 less that number. -/
theorem V_v21 (hy : ∀ a : Fin 4096, ((m ((c : Thread nD τ).loc main_arg0) : Cert.Spec.Lab) (ix1 a)).toNat < 100) :
    (V m c main_v21 : S1x1.Idx → EReal) = fun _ => Cert.Spec.neqDen (m ((c : Thread nD τ).loc main_arg0)) := by
  rw [V_v21_term]
  funext j
  rw [shapeCast_scalar_apply, Cert.KernelCounts.neqK_eq _ hy]

end Cert.KernelHost

end
-- ==== Proof.KernelValue.lean ====
/-
  At the extended reals the kernel's program computes the specification's loss.

  The 64 grid points are the pairs (i, j) of a block of 512 rows and a block of 512 rows, walked row-major: point t is
  (t / 8, t % 8). At a point the eight input windows hold rows [512 i, 512 i + 512) and rows [512 j, 512 j + 512) of the
  features, the squared norms of those rows (the first as a column, the second as a row), their labels (likewise) and
  the two denominators. From these the body forms, for every p, q < 512, the clamped squared distance
  max((‖x_b‖² + ‖x_a‖²) − 2⟨x_a, x_b⟩, 0) of rows a = 512 i + p and b = 512 j + q (the inner product is the matrix
  product of the first block with the second block transposed, into a zero accumulator), the hinge
  max(1 − √(d² + ε), 0), and the quotient d² / e where the labels agree, hinge² / n where they differ; it sums these over
  q, then over p, and adds the total to a one-element accumulator that starts at zero at the first point. That quotient
  is exactly the specification's term of the ordered pair (a, b). So after point n the accumulator holds the terms of
  the points up to n, and after the last point the terms of all 4096² ordered pairs, each once: a sum over blocks and
  positions inside a block is a sum over rows (only a re-indexing of a finite sum in a commutative monoid). The last
  point writes half the accumulator to the one-element result, whose one block is the whole array; the host operation
  after the region reshapes that array to a scalar.
-/
import proofs.«428971_j45028437131690_1_alg».proof.Proof.KernelIdeal.Frame
import proofs.«428971_j45028437131690_1_alg».proof.Proof.KernelHost
import proofs.«428971_j45028437131690_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

noncomputable section

namespace Cert.KernelValue

open Cert.KernelIdeal Cert.KernelIdeal.Gen Cert.KernelIdeal.Hand Idealize.ShloMosaic Idealize.ShloMosaic.ValueIdx Idealize.SL.Sem

/-! ## The matrix product of the two feature blocks, read at an index -/

theorem lhs_gram_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhs_gram_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhs_gram_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhs_gram_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The product of a block with a transposed block into a zero accumulator, at (p, q): the inner product of row p of the
    first with row q of the second. -/
theorem gram_apply (a b : FVec Ideal S512x512 .bf16) (p q : Fin 512) :
    matmul dot_S512x512_S512x512_S512x512_1_0_0_1_n_n none a
        (transpose S512x512 [1, 0] b transposes_S512x512_p1_0_S512x512) (constant S512x512 .f32 0x00000000#32) (ix2 p q)
      = ∑ k : Fin 512, a (ix2 p k) * b (ix2 q k) := by
  simp only [matmul]
  rw [Ideal.matmul_constant_zero_apply, ← Equiv.sum_comp (ValueIdx.contrEquiv1 dot_S512x512_S512x512_S512x512_1_0_0_1_n_n 512 rfl rfl).symm]
  refine Finset.sum_congr rfl fun k _ => ?_
  have hk := ValueIdx.contrEquiv1_symm_val dot_S512x512_S512x512_S512x512_1_0_0_1_n_n 512 rfl rfl k
  have el : dot_S512x512_S512x512_S512x512_1_0_0_1_n_n.lhsIdx (ix2 p q) ((ValueIdx.contrEquiv1 dot_S512x512_S512x512_S512x512_1_0_0_1_n_n 512 rfl rfl).symm k) = ix2 p k := funext fun a => Fin.ext (by
    match a with
    | ⟨0, _⟩ => exact lhs_gram_0 _ _
    | ⟨1, _⟩ => exact (lhs_gram_1 _ _).trans hk)
  have er : dot_S512x512_S512x512_S512x512_1_0_0_1_n_n.rhsIdx (ix2 p q) ((ValueIdx.contrEquiv1 dot_S512x512_S512x512_S512x512_1_0_0_1_n_n 512 rfl rfl).symm k) = ix2 k q := funext fun a => Fin.ext (by
    match a with
    | ⟨0, _⟩ => exact (rhs_gram_0 _ _).trans hk
    | ⟨1, _⟩ => exact rhs_gram_1 _ _)
  rw [el, er, transpose_ix2_apply]

/-! ## A column broadcast over many columns -/

/-- An `[a, 1]` array broadcast to `[a, b]` reads, at `(p, c)`, the operand's one column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-element array broadcast to `[a, b]` reads its one element everywhere. -/
theorem broadcastTo_11_ab_apply {α : Type} {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-! ## The clamped squared distance, the label test and the hinge of a block pair, at an index -/

/-- The clamped squared distance at (p, q) of the block: the row norm at q plus the column norm at p, less twice the
    inner product of rows p and q, clamped at zero. -/
theorem pay4_apply (x0 x1 : Vec Ideal S512x512 .bf16) (x2 : Vec Ideal S512x1 .f32) (x3 : Vec Ideal S1x512 .f32) (p q : Fin 512) :
    k0_pay4 x0 x1 x2 x3 (ix2 p q)
      = max ((x3 (ix2 (0 : Fin 1) q) + x2 (ix2 p (0 : Fin 1))) - Ideal.ofBits .f32 0x40000000#32 * ∑ k : Fin 512, x0 (ix2 p k) * x1 (ix2 q k))
          (Ideal.ofBits .f32 0x00000000#32) := by
  unfold k0_pay4
  simp only [shapeCast_self]
  show max ((broadcastTo S512x512 x3 broadcasts_S1x512_S512x512 (ix2 p q) + broadcastTo S512x512 x2 broadcasts_S512x1_S512x512 (ix2 p q))
      - Ideal.ofBits .f32 0x40000000#32 * matmul (F := Ideal) dot_S512x512_S512x512_S512x512_1_0_0_1_n_n none x0
        (transpose S512x512 [1, 0] x1 transposes_S512x512_p1_0_S512x512) (constant S512x512 .f32 0x00000000#32) (ix2 p q)) (Ideal.ofBits .f32 0x00000000#32) = _
  rw [gram_apply, broadcastTo_1b_ab_apply, broadcastTo_a1_ab_apply]

/-- The label test at (p, q): the column label at p against the row label at q. -/
theorem pay5_apply (x4 : Vec Ideal S512x1 .i32) (x5 : Vec Ideal S1x512 .i32) (p q : Fin 512) :
    k0_pay5 (F := Ideal) x4 x5 (ix2 p q) = IntOp.cmpi .eq (x4 (ix2 p (0 : Fin 1))) (x5 (ix2 (0 : Fin 1) q)) := by
  unfold k0_pay5
  simp only [shapeCast_self]
  show IntOp.cmpi .eq (broadcastTo S512x512 x4 broadcasts_S512x1_S512x512 (ix2 p q)) (broadcastTo S512x512 x5 broadcasts_S1x512_S512x512 (ix2 p q)) = _
  rw [broadcastTo_1b_ab_apply, broadcastTo_a1_ab_apply]

/-- One less the root of the clamped squared distance plus the small constant, at (p, q). -/
theorem pay6_apply (x0 x1 : Vec Ideal S512x512 .bf16) (x2 : Vec Ideal S512x1 .f32) (x3 : Vec Ideal S1x512 .f32) (p q : Fin 512) :
    k0_pay6 x0 x1 x2 x3 (ix2 p q)
      = Ideal.ofBits .f32 0x3F800000#32 - Ideal.sqrt (k0_pay4 x0 x1 x2 x3 (ix2 p q) + Ideal.ofBits .f32 0x26901D7D#32) := rfl

theorem pay7_apply (i : S512x512.Idx) : k0_pay7 (F := Ideal) i = Ideal.ofBits .f32 0x00000000#32 := rfl

/-! ## The two lane sums and the casts between them -/

/-- An `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- The sum along the rows of a block, at row p: the sum over the columns. -/
theorem rowSum_apply (src : FVec Ideal S512x512 .f32) (p : Fin 512) :
    multiReduction (F := Ideal) .add [1] S512 src 0x00000000#32 reduces_S512x512_S512 (.inl rfl) rfl (ix1 p) = ∑ q : Fin 512, src (ix2 p q) := by
  refine (Ideal.multiReduction_add_single src 0x00000000#32 reduces_S512x512_S512 (.inl rfl) rfl (ix1 p)).trans ?_
  refine Finset.sum_congr rfl fun q _ => congrArg src ?_
  funext a
  match a with
  | ⟨0, _⟩ => rfl
  | ⟨1, _⟩ => rfl

/-- The sum down a column vector: the sum over its rows. -/
theorem colSum_apply (src : FVec Ideal S512x1 .f32) (u : Fin 1) :
    multiReduction (F := Ideal) .add [0] S1 src 0x00000000#32 reduces_S512x1_S1 (.inl rfl) rfl (ix1 u) = ∑ p : Fin 512, src (ix2 p (0 : Fin 1)) := by
  refine (Ideal.multiReduction_add_single src 0x00000000#32 reduces_S512x1_S1 (.inl rfl) rfl (ix1 u)).trans ?_
  refine Finset.sum_congr rfl fun p _ => congrArg src ?_
  funext a
  match a with
  | ⟨0, _⟩ => rfl
  | ⟨1, _⟩ => exact Fin.ext (by show (u : ℕ) = 0; omega)

/-- The one index of a one-element array. -/
theorem eq_ix00 (j : S1x1.Idx) : j = ix2 (0 : Fin 1) (0 : Fin 1) := by
  funext a
  match a with
  | ⟨0, _⟩ => exact Fin.ext (by have h : (j 0).val < 1 := (j 0).isLt; show (j 0).val = 0; omega)
  | ⟨1, _⟩ => exact Fin.ext (by have h : (j 1).val < 1 := (j 1).isLt; show (j 1).val = 0; omega)

/-! ## The accumulator's step, at its one index -/

/-- The stored accumulator: what was there plus the sum over the block of the selected quotient. -/
theorem pay1_apply (v22 : FVec Ideal S512x512 .f32) (v32 : IVec S512x512 1) (v34 v35 : FVec Ideal S512x512 .f32)
    (v38 v40 v51 : Vec Ideal S1x1 .f32) (j : S1x1.Idx) :
    k0_pay1 v22 v32 v34 v35 v38 v40 v51 j
      = v51 (ix2 (0 : Fin 1) (0 : Fin 1)) + ∑ p : Fin 512, ∑ q : Fin 512,
          Scalar.select (v32 (ix2 p q)) (Ideal.div (v22 (ix2 p q)) (v38 (ix2 (0 : Fin 1) (0 : Fin 1))))
            (Ideal.div (max (v34 (ix2 p q)) (v35 (ix2 p q)) * max (v34 (ix2 p q)) (v35 (ix2 p q))) (v40 (ix2 (0 : Fin 1) (0 : Fin 1)))) := by
  rw [eq_ix00 j]
  unfold k0_pay1
  simp only [shapeCast_self]
  refine congrArg (v51 (ix2 (0 : Fin 1) (0 : Fin 1)) + ·) ?_
  refine (shapeCast_a_1a_apply _ shapeCasts_S1_S1x1 (0 : Fin 1) (0 : Fin 1)).trans ?_
  refine (colSum_apply _ (0 : Fin 1)).trans ?_
  refine Finset.sum_congr rfl fun p _ => ?_
  refine (shapeCast_a_a1_apply _ shapeCasts_S512_S512x1 p (0 : Fin 1)).trans ?_
  refine (rowSum_apply _ p).trans ?_
  refine Finset.sum_congr rfl fun q _ => ?_
  show Scalar.select (v32 (ix2 p q))
      (Ideal.div (v22 (ix2 p q)) (broadcastTo S512x512 v38 broadcasts_S1x1_S512x512 (ix2 p q)))
      (Ideal.div (max (v34 (ix2 p q)) (v35 (ix2 p q)) * max (v34 (ix2 p q)) (v35 (ix2 p q))) (broadcastTo S512x512 v40 broadcasts_S1x1_S512x512 (ix2 p q))) = _
  rw [broadcastTo_11_ab_apply, broadcastTo_11_ab_apply]

/-! ## Regrouping the sum over blocks and positions inside a block into the sum over rows -/

/-- Row `p` of block `b` (of eight blocks of 512 rows). -/
def rowOf (b : ℕ) (p : Fin 512) : Fin 4096 :=
  ⟨512 * (b % 8) + p.val, by have := p.isLt; have := Nat.mod_lt b (show 0 < 8 by decide); omega⟩

theorem rowOf_val (b : ℕ) (p : Fin 512) : (rowOf b p).val = 512 * (b % 8) + p.val := rfl

/-- Every row is one position of one block: the sum over blocks and positions is the sum over rows. -/
theorem sum_rows {M : Type*} [AddCommMonoid M] (h : Fin 4096 → M) :
    ∑ i : Fin 8, ∑ p : Fin 512, h (rowOf i.val p) = ∑ a : Fin 4096, h a := by
  rw [← Fintype.sum_prod_type (f := fun x : Fin 8 × Fin 512 => h (rowOf x.1.val x.2))]
  refine Fintype.sum_equiv (finProdFinEquiv (m := 8) (n := 512)) _ _ fun x => congrArg h (Fin.ext ?_)
  have h1 := x.1.isLt
  show 512 * (x.1.val % 8) + x.2.val = x.2.val + 512 * x.1.val
  omega

/-- The 64 grid points are the pairs of a row block and a column block, in row-major order; so the sum over the
    points, the positions inside the row block and the positions inside the column block is the sum over all pairs of rows. -/
theorem sum_blocks {M : Type*} [AddCommMonoid M] (g : Fin 4096 → Fin 4096 → M) :
    ∑ t ∈ Finset.range 64, ∑ p : Fin 512, ∑ q : Fin 512, g (rowOf (t / 8) p) (rowOf (t % 8) q)
      = ∑ a : Fin 4096, ∑ b : Fin 4096, g a b := by
  rw [Finset.sum_range (fun t => ∑ p : Fin 512, ∑ q : Fin 512, g (rowOf (t / 8) p) (rowOf (t % 8) q))]
  have e : ∑ x : Fin 8 × Fin 8, ∑ p : Fin 512, ∑ q : Fin 512, g (rowOf x.1.val p) (rowOf x.2.val q)
      = ∑ t : Fin 64, ∑ p : Fin 512, ∑ q : Fin 512, g (rowOf (t.val / 8) p) (rowOf (t.val % 8) q) := by
    refine Fintype.sum_equiv (finProdFinEquiv (m := 8) (n := 8)) _ _ fun x => ?_
    have h1 := x.1.isLt
    have h2 := x.2.isLt
    have ea : ∀ p, rowOf ((finProdFinEquiv x).val / 8) p = rowOf x.1.val p := fun p => Fin.ext (by
      show 512 * ((x.2.val + 8 * x.1.val) / 8 % 8) + p.val = 512 * (x.1.val % 8) + p.val
      omega)
    have eb : ∀ q, rowOf ((finProdFinEquiv x).val % 8) q = rowOf x.2.val q := fun q => Fin.ext (by
      show 512 * ((x.2.val + 8 * x.1.val) % 8 % 8) + q.val = 512 * (x.2.val % 8) + q.val
      omega)
    simp only [ea, eb]
  rw [← e, Fintype.sum_prod_type]
  have e2 : ∀ i : Fin 8, ∑ j : Fin 8, ∑ p : Fin 512, ∑ q : Fin 512, g (rowOf i.val p) (rowOf j.val q)
      = ∑ p : Fin 512, ∑ b : Fin 4096, g (rowOf i.val p) b := fun i => by
    rw [Finset.sum_comm]
    exact Finset.sum_congr rfl fun p _ => sum_rows (g (rowOf i.val p))
  simp only [e2]
  exact sum_rows fun a => ∑ b : Fin 4096, g a b

/-! ## One grid point's step as a sum of the specification's pair terms -/

/-- If the eight blocks hold the features of row blocks `i` and `j`, their squared norms, their labels and the two
    denominators, the step adds to the accumulator the specification's pair terms of the rows of block `i` against the
    rows of block `j`. -/
theorem step_apply (x0 x1 : Vec Ideal S512x512 .bf16) (x2 : Vec Ideal S512x1 .f32) (x3 : Vec Ideal S1x512 .f32)
    (x4 : Vec Ideal S512x1 .i32) (x5 : Vec Ideal S1x512 .i32) (x6 x7 s : Vec Ideal S1x1 .f32)
    (y : Cert.Spec.Lab) (x : Cert.Spec.Feat) (e n : EReal) (i j : ℕ)
    (h0 : ∀ p k, x0 (ix2 p k) = x (ix2 (rowOf i p) k)) (h1 : ∀ q k, x1 (ix2 q k) = x (ix2 (rowOf j q) k))
    (h2 : ∀ p, x2 (ix2 p (0 : Fin 1)) = Cert.Spec.sqn x (rowOf i p)) (h3 : ∀ q, x3 (ix2 (0 : Fin 1) q) = Cert.Spec.sqn x (rowOf j q))
    (h4 : ∀ p, x4 (ix2 p (0 : Fin 1)) = y (ix1 (rowOf i p))) (h5 : ∀ q, x5 (ix2 (0 : Fin 1) q) = y (ix1 (rowOf j q)))
    (h6 : x6 (ix2 (0 : Fin 1) (0 : Fin 1)) = e) (h7 : x7 (ix2 (0 : Fin 1) (0 : Fin 1)) = n) (u : S1x1.Idx) :
    step x0 x1 x2 x3 x4 x5 x6 x7 s u
      = s (ix2 (0 : Fin 1) (0 : Fin 1)) + ∑ p : Fin 512, ∑ q : Fin 512, Cert.Spec.pair y x e n (rowOf i p) (rowOf j q) := by
  unfold step
  refine (pay1_apply _ _ _ _ _ _ _ u).trans ?_
  refine congrArg (s (ix2 (0 : Fin 1) (0 : Fin 1)) + ·) (Finset.sum_congr rfl fun p _ => Finset.sum_congr rfl fun q _ => ?_)
  have hd : k0_pay4 x0 x1 x2 x3 (ix2 p q) = Cert.Spec.d2 x (rowOf i p) (rowOf j q) := by
    rw [pay4_apply]
    unfold Cert.Spec.d2 Cert.Spec.gram
    simp only [h0, h1, h2, h3]
  rw [pay5_apply, pay6_apply, pay7_apply, hd, h4, h5, h6, h7]
  unfold Cert.Spec.pair Cert.Spec.hinge Scalar.select
  exact if_congr IntOp.cmpi_eq rfl rfl

/-! ## The windows' blocks, read off the arrays -/

section Blocks

variable {F : FTy → Type} [FloatOps F] (m : (ℓ : Loc nD τ sig) → Buf (Elt F) ℓ)

/-- The printed index maps, decided over the grid: at point `t` the row block is `t / 8`, the column block `t % 8`;
    the two denominators and the result have one block. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = 0
    ∧ win0_5.index t (0 : Fin 2) = 0 ∧ win0_5.index t (1 : Fin 2) = t.val % 8
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

theorem tval_lt (t : Fin cfg0.N) : t.val < 64 := lt_of_lt_of_eq t.isLt (show cfg0.N = 64 from N_0)

/-- Window 0's block at point `t`: rows of block `t / 8` of the features. -/
theorem iblk0_apply (c : Dev nD) (t : Fin cfg0.N) (p k : Fin 512) :
    (iblk m c 0 t : Vec F S512x512 .bf16) (ix2 p k) = (V m c main_v15 : Vec F S4096x512 .bf16) (ix2 (rowOf (t.val / 8) p) k) := by
  obtain ⟨e0, e1, -⟩ := idx_facts t
  have ht := tval_lt t
  show V m c main_v15 (((cfg0.win 0).blk t).view.emb (ix2 p k)) = V m c main_v15 (ix2 (rowOf (t.val / 8) p) k)
  refine congrArg (V m c main_v15) (funext fun a => Fin.ext ?_)
  match a with
  | ⟨0, _⟩ => show win0_0.index t (0 : Fin 2) * 512 + 1 * p.val = 512 * (t.val / 8 % 8) + p.val; omega
  | ⟨1, _⟩ => show win0_0.index t (1 : Fin 2) * 512 + 1 * k.val = k.val; omega

/-- Window 1's block at point `t`: rows of block `t % 8` of the features. -/
theorem iblk1_apply (c : Dev nD) (t : Fin cfg0.N) (q k : Fin 512) :
    (iblk m c 1 t : Vec F S512x512 .bf16) (ix2 q k) = (V m c main_v15 : Vec F S4096x512 .bf16) (ix2 (rowOf (t.val % 8) q) k) := by
  obtain ⟨-, -, e0, e1, -⟩ := idx_facts t
  have ht := tval_lt t
  show V m c main_v15 (((cfg0.win 1).blk t).view.emb (ix2 q k)) = V m c main_v15 (ix2 (rowOf (t.val % 8) q) k)
  refine congrArg (V m c main_v15) (funext fun a => Fin.ext ?_)
  match a with
  | ⟨0, _⟩ => show win0_1.index t (0 : Fin 2) * 512 + 1 * q.val = 512 * (t.val % 8 % 8) + q.val; omega
  | ⟨1, _⟩ => show win0_1.index t (1 : Fin 2) * 512 + 1 * k.val = k.val; omega

/-- Window 2's block at point `t`: entries of block `t / 8` of the column of squared norms. -/
theorem iblk2_apply (c : Dev nD) (t : Fin cfg0.N) (p : Fin 512) :
    (iblk m c 2 t : Vec F S512x1 .f32) (ix2 p (0 : Fin 1)) = (V m c main_v16 : Vec F S4096x1 .f32) (ix2 (rowOf (t.val / 8) p) (0 : Fin 1)) := by
  obtain ⟨-, -, -, -, e0, e1, -⟩ := idx_facts t
  have ht := tval_lt t
  show V m c main_v16 (((cfg0.win 2).blk t).view.emb (ix2 p (0 : Fin 1))) = V m c main_v16 (ix2 (rowOf (t.val / 8) p) (0 : Fin 1))
  refine congrArg (V m c main_v16) (funext fun a => Fin.ext ?_)
  match a with
  | ⟨0, _⟩ => show win0_2.index t (0 : Fin 2) * 512 + 1 * p.val = 512 * (t.val / 8 % 8) + p.val; omega
  | ⟨1, _⟩ => show win0_2.index t (1 : Fin 2) * 1 + 1 * 0 = 0; omega

/-- Window 3's block at point `t`: entries of block `t % 8` of the row of squared norms. -/
theorem iblk3_apply (c : Dev nD) (t : Fin cfg0.N) (q : Fin 512) :
    (iblk m c 3 t : Vec F S1x512 .f32) (ix2 (0 : Fin 1) q) = (V m c main_v17 : Vec F S1x4096 .f32) (ix2 (0 : Fin 1) (rowOf (t.val % 8) q)) := by
  obtain ⟨-, -, -, -, -, -, e0, e1, -⟩ := idx_facts t
  have ht := tval_lt t
  show V m c main_v17 (((cfg0.win 3).blk t).view.emb (ix2 (0 : Fin 1) q)) = V m c main_v17 (ix2 (0 : Fin 1) (rowOf (t.val % 8) q))
  refine congrArg (V m c main_v17) (funext fun a => Fin.ext ?_)
  match a with
  | ⟨0, _⟩ => show win0_3.index t (0 : Fin 2) * 1 + 1 * 0 = 0; omega
  | ⟨1, _⟩ => show win0_3.index t (1 : Fin 2) * 512 + 1 * q.val = 512 * (t.val % 8 % 8) + q.val; omega

/-- Window 4's block at point `t`: entries of block `t / 8` of the column of labels. -/
theorem iblk4_apply (c : Dev nD) (t : Fin cfg0.N) (p : Fin 512) :
    (iblk m c 4 t : Vec F S512x1 .i32) (ix2 p (0 : Fin 1)) = (V m c main_v18 : Vec F S4096x1 .i32) (ix2 (rowOf (t.val / 8) p) (0 : Fin 1)) := by
  obtain ⟨-, -, -, -, -, -, -, -, e0, e1, -⟩ := idx_facts t
  have ht := tval_lt t
  show V m c main_v18 (((cfg0.win 4).blk t).view.emb (ix2 p (0 : Fin 1))) = V m c main_v18 (ix2 (rowOf (t.val / 8) p) (0 : Fin 1))
  refine congrArg (V m c main_v18) (funext fun a => Fin.ext ?_)
  match a with
  | ⟨0, _⟩ => show win0_4.index t (0 : Fin 2) * 512 + 1 * p.val = 512 * (t.val / 8 % 8) + p.val; omega
  | ⟨1, _⟩ => show win0_4.index t (1 : Fin 2) * 1 + 1 * 0 = 0; omega

/-- Window 5's block at point `t`: entries of block `t % 8` of the row of labels. -/
theorem iblk5_apply (c : Dev nD) (t : Fin cfg0.N) (q : Fin 512) :
    (iblk m c 5 t : Vec F S1x512 .i32) (ix2 (0 : Fin 1) q) = (V m c main_v19 : Vec F S1x4096 .i32) (ix2 (0 : Fin 1) (rowOf (t.val % 8) q)) := by
  obtain ⟨-, -, -, -, -, -, -, -, -, -, e0, e1, -⟩ := idx_facts t
  have ht := tval_lt t
  show V m c main_v19 (((cfg0.win 5).blk t).view.emb (ix2 (0 : Fin 1) q)) = V m c main_v19 (ix2 (0 : Fin 1) (rowOf (t.val % 8) q))
  refine congrArg (V m c main_v19) (funext fun a => Fin.ext ?_)
  match a with
  | ⟨0, _⟩ => show win0_5.index t (0 : Fin 2) * 1 + 1 * 0 = 0; omega
  | ⟨1, _⟩ => show win0_5.index t (1 : Fin 2) * 512 + 1 * q.val = 512 * (t.val % 8 % 8) + q.val; omega

/-- Window 6's block at every point: the one-element array of the first denominator. -/
theorem iblk6_apply (c : Dev nD) (t : Fin cfg0.N) :
    (iblk m c 6 t : Vec F S1x1 .f32) (ix2 (0 : Fin 1) (0 : Fin 1)) = (V m c main_v20 : Vec F S1x1 .f32) (ix2 (0 : Fin 1) (0 : Fin 1)) := by
  obtain ⟨-, -, -, -, -, -, -, -, -, -, -, -, e0, e1, -⟩ := idx_facts t
  show V m c main_v20 (((cfg0.win 6).blk t).view.emb (ix2 (0 : Fin 1) (0 : Fin 1))) = V m c main_v20 (ix2 (0 : Fin 1) (0 : Fin 1))
  refine congrArg (V m c main_v20) (funext fun a => Fin.ext ?_)
  match a with
  | ⟨0, _⟩ => show win0_6.index t (0 : Fin 2) * 1 + 1 * 0 = 0; omega
  | ⟨1, _⟩ => show win0_6.index t (1 : Fin 2) * 1 + 1 * 0 = 0; omega

/-- Window 7's block at every point: the one-element array of the second denominator. -/
theorem iblk7_apply (c : Dev nD) (t : Fin cfg0.N) :
    (iblk m c 7 t : Vec F S1x1 .f32) (ix2 (0 : Fin 1) (0 : Fin 1)) = (V m c main_v21 : Vec F S1x1 .f32) (ix2 (0 : Fin 1) (0 : Fin 1)) := by
  obtain ⟨-, -, -, -, -, -, -, -, -, -, -, -, -, -, e0, e1, -⟩ := idx_facts t
  show V m c main_v21 (((cfg0.win 7).blk t).view.emb (ix2 (0 : Fin 1) (0 : Fin 1))) = V m c main_v21 (ix2 (0 : Fin 1) (0 : Fin 1))
  refine congrArg (V m c main_v21) (funext fun a => Fin.ext ?_)
  match a with
  | ⟨0, _⟩ => show win0_7.index t (0 : Fin 2) * 1 + 1 * 0 = 0; omega
  | ⟨1, _⟩ => show win0_7.index t (1 : Fin 2) * 1 + 1 * 0 = 0; omega

/-! ## The result's array after the run -/

/-- Any two indices of a one-element array are equal. -/
theorem idx11_eq (a b : S1x1.Idx) : a = b := by
  funext d
  match d with
  | ⟨0, _⟩ => exact Fin.ext (by have h : (a 0).val < 1 := (a 0).isLt; have h' : (b 0).val < 1 := (b 0).isLt; show (a 0).val = (b 0).val; omega)
  | ⟨1, _⟩ => exact Fin.ext (by have h : (a 1).val < 1 := (a 1).isLt; have h' : (b 1).val < 1 := (b 1).isLt; show (a 1).val = (b 1).val; omega)

/-- An index of the result's array is in point `t`'s block iff each coordinate is in the block's range on its axis. -/
theorem mem_blk8 (t : Fin cfg0.N) (i : S1x1.Idx) :
    i ∈ ((cfg0.win 8).blk t).view.set ↔ ∀ a : Fin 2, win0_8.index t a * S1x1.size a ≤ (i a).val ∧ (i a).val < win0_8.index t a * S1x1.size a + S1x1.size a := by
  show i ∈ ((View.whole main_v22).slice (win0_8.rect t)).set ↔ _
  rw [View.set_slice_whole, Rect.mem_set_unit]
  exact Iff.rfl

theorem last_lt : 63 < cfg0.N := by rw [show cfg0.N = 64 from N_0]; omega

/-- The result's one-element array is written back at the last point only, and that point's block is the whole array:
    after the run it holds half the accumulator the last point left. -/
theorem final8 (c : Dev nD) : (dats m 0 c).arrAt 8 cfg0.N = k0_pay2 (accAt m c 63 last_lt) := by
  refine (dats m 0 c).arrAt_eq_of_cover 8 (k0_pay2 (accAt m c 63 last_lt)) (fun t hf => ?_) (fun i => ?_)
  · have ht : t.val = 63 := by have := (flush0_8 t).mp hf; have := tval_lt t; omega
    obtain rfl : t = ⟨63, last_lt⟩ := Fin.ext ht
    show (cfg0.win 8).cut (grid0.coords ⟨63, last_lt⟩) ((dats m 0 c).after 8 ⟨63, last_lt⟩) = _
    rw [after0_8]
    funext y
    show k0_pay2 (accAt m c 63 last_lt) ((cfg0.win 8).xinj (grid0.coords ⟨63, last_lt⟩) y) = k0_pay2 (accAt m c 63 last_lt) (((cfg0.win 8).blk ⟨63, last_lt⟩).view.emb y)
    exact congrArg (k0_pay2 (accAt m c 63 last_lt)) (idx11_eq _ _)
  · refine ⟨⟨63, last_lt⟩, (flush0_8 ⟨63, last_lt⟩).mpr rfl, ?_⟩
    obtain ⟨-, -, -, -, -, -, -, -, -, -, -, -, -, -, -, -, e0, e1⟩ := idx_facts ⟨63, last_lt⟩
    rw [mem_blk8]
    intro a
    match a with
    | ⟨0, _⟩ => show win0_8.index ⟨63, last_lt⟩ (0 : Fin 2) * 1 ≤ (i 0).val ∧ (i 0).val < win0_8.index ⟨63, last_lt⟩ (0 : Fin 2) * 1 + 1; have h : (i 0).val < 1 := (i 0).isLt; omega
    | ⟨1, _⟩ => show win0_8.index ⟨63, last_lt⟩ (1 : Fin 2) * 1 ≤ (i 1).val ∧ (i 1).val < win0_8.index ⟨63, last_lt⟩ (1 : Fin 2) * 1 + 1; have h : (i 1).val < 1 := (i 1).isLt; omega

end Blocks

/-! ## The accumulator over the grid, and the result -/

section Value

variable (m : (ℓ : Loc nD τ sig) → Buf (Elt Ideal) ℓ) (c : Dev nD)

/-- The pair terms one grid point adds: the rows of block `t / 8` against the rows of block `t % 8`. -/
def pointSum (y : Cert.Spec.Lab) (x : Cert.Spec.Feat) (t : ℕ) : EReal :=
  ∑ p : Fin 512, ∑ q : Fin 512, Cert.Spec.pair y x (Cert.Spec.eqDen y) (Cert.Spec.neqDen y) (rowOf (t / 8) p) (rowOf (t % 8) q)

/-- Half of a one-element vector. -/
theorem pay2_apply (v : Vec Ideal S1x1 .f32) (u : S1x1.Idx) : k0_pay2 v u = Ideal.ofBits .f32 0x3F000000#32 * v u := rfl

/-- The zero the accumulator starts from. -/
theorem pay3_apply (u : S1x1.Idx) : k0_pay3 (F := Ideal) u = 0 := by
  show Ideal.ofBits .f32 0x00000000#32 = 0
  exact Ideal.ofBits_zero_f32

/-- One grid point's step on the blocks the windows hold there adds that point's pair terms. -/
theorem step_point (hy : ∀ a : Fin 4096, ((m ((c.tc : Thread nD τ).loc main_arg0)) (ValueIdx.ix1 a)).toNat < 100)
    (t : Fin cfg0.N) (s : Vec Ideal S1x1 .f32) (u : S1x1.Idx) :
    step (iblk m c 0 t) (iblk m c 1 t) (iblk m c 2 t) (iblk m c 3 t) (iblk m c 4 t) (iblk m c 5 t) (iblk m c 6 t) (iblk m c 7 t) s u
      = s (ix2 (0 : Fin 1) (0 : Fin 1)) + pointSum (m ((c.tc : Thread nD τ).loc main_arg0)) (m ((c.tc : Thread nD τ).loc main_arg1)) t.val :=
  step_apply (iblk m c 0 t) (iblk m c 1 t) (iblk m c 2 t) (iblk m c 3 t) (iblk m c 4 t) (iblk m c 5 t) (iblk m c 6 t) (iblk m c 7 t) s
    (m ((c.tc : Thread nD τ).loc main_arg0)) (m ((c.tc : Thread nD τ).loc main_arg1))
    (Cert.Spec.eqDen (m ((c.tc : Thread nD τ).loc main_arg0))) (Cert.Spec.neqDen (m ((c.tc : Thread nD τ).loc main_arg0)))
    (t.val / 8) (t.val % 8)
    (fun p k => (iblk0_apply m c t p k).trans (congrFun (Cert.KernelHost.V_v15 m c) _))
    (fun q k => (iblk1_apply m c t q k).trans (congrFun (Cert.KernelHost.V_v15 m c) _))
    (fun p => (iblk2_apply m c t p).trans (congrFun (Cert.KernelHost.V_v16 m c) _))
    (fun q => (iblk3_apply m c t q).trans (congrFun (Cert.KernelHost.V_v17 m c) _))
    (fun p => (iblk4_apply m c t p).trans (congrFun (Cert.KernelHost.V_v18 m c) _))
    (fun q => (iblk5_apply m c t q).trans (congrFun (Cert.KernelHost.V_v19 m c) _))
    ((iblk6_apply m c t).trans (congrFun (Cert.KernelHost.V_v20 m c hy) _))
    ((iblk7_apply m c t).trans (congrFun (Cert.KernelHost.V_v21 m c hy) _)) u

/-- After point `n` the accumulator holds the pair terms of the points up to `n`. -/
theorem accAt_eq (hy : ∀ a : Fin 4096, ((m ((c.tc : Thread nD τ).loc main_arg0)) (ValueIdx.ix1 a)).toNat < 100) :
    ∀ (n : ℕ) (h : n < cfg0.N) (u : S1x1.Idx),
      accAt m c n h u = ∑ t ∈ Finset.range (n + 1), pointSum (m ((c.tc : Thread nD τ).loc main_arg0)) (m ((c.tc : Thread nD τ).loc main_arg1)) t
  | 0, h, u => by
    rw [accAt_zero]
    refine (step_point m c hy ⟨0, h⟩ (k0_pay3 (F := Ideal)) u).trans ?_
    rw [pay3_apply, zero_add, Finset.sum_range_succ, Finset.sum_range_zero, zero_add]
  | n + 1, h, u => by
    rw [accAt_succ]
    refine (step_point m c hy ⟨n + 1, h⟩ (accAt m c n (Nat.lt_of_succ_lt h)) u).trans ?_
    rw [accAt_eq hy n (Nat.lt_of_succ_lt h) _, Finset.sum_range_succ _ (n + 1)]

/-- THE KERNEL'S RESULT at the ideal instance: the specification's loss of the labels and the features. -/
theorem kernel_value (hy : ∀ a : Fin 4096, ((m ((c.tc : Thread nD τ).loc main_arg0)) (ValueIdx.ix1 a)).toNat < 100) :
    StableHlo.after (List.flatten [hostOps1]) (VN m c) (Proc.devRef .tc main_v23)
      = fun _ => Cert.Spec.theLoss (m ((c.tc : Thread nD τ).loc main_arg0)) (m ((c.tc : Thread nD τ).loc main_arg1)) := by
  have hv : VN m c (Proc.devRef .tc main_v22) = (dats m 0 c).arrAt 8 cfg0.N := by
    unfold VN; exact Function.update_self _ _ _
  rw [result_after, hv, final8]
  funext i
  show k0_pay2 (accAt m c 63 last_lt) _ = _
  rw [pay2_apply, accAt_eq m c hy 63 last_lt]
  unfold Cert.Spec.theLoss Cert.Spec.loss
  exact congrArg (Ideal.ofBits .f32 0x3F000000#32 * ·)
    (sum_blocks fun a b => Cert.Spec.pair (m ((c.tc : Thread nD τ).loc main_arg0)) (m ((c.tc : Thread nD τ).loc main_arg1))
      (Cert.Spec.eqDen (m ((c.tc : Thread nD τ).loc main_arg0))) (Cert.Spec.neqDen (m ((c.tc : Thread nD τ).loc main_arg0))) a b)

end Value

end Cert.KernelValue

end
-- ==== Proof.RefValue.lean ====
import proofs.«428971_j45028437131690_1_alg».proof.Proof.Gen.ReferenceIdeal.Run
import proofs.«428971_j45028437131690_1_alg».proof.Proof.Gen.ReferenceIdeal.Read
import proofs.«428971_j45028437131690_1_alg».proof.Proof.Spec
import Idealize.ShloMosaic.Lib.StableHlo.Predicate
import Idealize.ShloMosaic.PureOps.Ideal.Laws
import Idealize.ShloMosaic.Lib.ValueIdx

/-
  The reference program's result is the loss of the specification, for all labels y and features x.

  Read one operation at a time at a pair (a, b) of rows: the label mask is set exactly when y_a = y_b (the reference
  tests y_b − y_a = 0 on 32-bit words); the row sums of squares are ‖x_a‖², the product with the transpose is ⟨x_a, x_b⟩,
  so the clamped distance and the hinge are d²(a, b) and h(a, b) of the specification, term for term. The integer sum of
  the widened mask over all 4096² pairs is the number e of equal-label pairs: e ≤ 2²⁴, so the sum of words does not wrap,
  e and 2²⁴ − e are below 2³¹ and convert, signed, to the reals e and 2²⁴ − e: the two denominators. The selected term
  is then the pair's term, the total sum over the rank-2 index set is the double sum over (a, b), and the zero the sums
  start from is 0.
-/

noncomputable section

namespace Cert.RefValue

open Cert.ReferenceIdeal Cert.ReferenceIdeal.Gen Cert.ReferenceIdeal.Read Idealize.ShloMosaic Idealize.ShloMosaic.ValueIdx
open Idealize.ShloMosaic.StableHlo.Predicate
open Cert.Spec

/-- The label mask at the pair (a, b) is set exactly when the two labels are equal. -/
theorem mask_iff (y : Lab) (a b : Fin 4096) :
    val_main_v6 (F := Ideal) y (ix2 a b) = 1#1 ↔ y (ix1 a) = y (ix1 b) := by
  rw [val_main_v6_apply, val_main_v4_apply, val_main_v2_apply, val_main_v0_apply, val_main_v3_apply, val_main_v1_apply,
    val_main_v5_apply, val_main_c_apply, cmpi_eq_iff]
  have e2 : idx_main_v0 (idx_main_v2 (ix2 a b)) = ix1 b := funext fun d => by match d with | ⟨0, _⟩ => rfl
  have e3 : idx_main_v1 (idx_main_v3 (ix2 a b)) = ix1 a := funext fun d => by match d with | ⟨0, _⟩ => rfl
  rw [e2, e3]
  show y (ix1 b) - y (ix1 a) = 0#32 ↔ _
  rw [BitVec.sub_eq_iff_eq_add, BitVec.zero_add]
  exact eq_comm

/-- The number of set bits of the mask, summed over all pairs, is the number of equal-label pairs. -/
theorem sum_mask (y : Lab) :
    ∑ i : S4096x4096.Idx, (val_main_v24 (F := Ideal) y i).toNat = eqPairs y := by
  rw [sum_idx2]
  unfold eqPairs
  rw [Finset.card_filter, Fintype.sum_prod_type]
  refine Finset.sum_congr rfl fun a _ => Finset.sum_congr rfl fun b _ => ?_
  rw [val_main_v24_apply, toNat_setWidth_bit]
  exact if_congr (mask_iff y a b) rfl rfl

/-- The integer count of the mask is the number of equal-label pairs, as a word: it is at most 2²⁴, so the
    word sum does not wrap. -/
theorem count_eq (y : Lab) (i : S_.Idx) :
    val_main_v25 (F := Ideal) y i = BitVec.ofNat 32 (eqPairs y) := by
  unfold val_main_v25
  rw [Host.reduce_eq_fold]
  have hall : (Finset.univ.filter fun j : S4096x4096.Idx => reducesTo_S4096x4096_S_d0_1.drop j = i) = Finset.univ :=
    Finset.filter_true_of_mem fun j _ => funext fun b => b.elim0
  rw [hall]
  apply BitVec.eq_of_toNat_eq
  have hle := eqPairs_le y
  show (Finset.fold IntOp.addi 0#32 (val_main_v24 (F := Ideal) y) Finset.univ).toNat = _
  rw [toNat_fold_addi _ _ (by rw [sum_mask]; omega), sum_mask, BitVec.toNat_ofNat]
  exact (Nat.mod_eq_of_lt (by omega)).symm

/-- At the extended reals a signed word converts to its integer value. -/
theorem sitofp_ideal (b : BitVec 32) : FloatOps.sitofp (F := Ideal) .f32 b = ((b.toInt : ℝ) : EReal) := rfl

/-- A count of at most 2²⁴ reads back, signed, as itself. -/
theorem word_count_toInt (n : ℕ) (hn : n ≤ 16777216) :
    (((BitVec.ofNat 32 n).toInt : ℝ) : EReal) = ((n : ℝ) : EReal) := by
  have h31 : n < 2 ^ 31 := by omega
  rw [toInt_ofNat_small _ h31, Int.cast_natCast]

/-- 2²⁴ less such a count does not wrap. -/
theorem word_rest_word (n : ℕ) (hn : n ≤ 16777216) :
    IntOp.subi 16777216#32 (BitVec.ofNat 32 n) = BitVec.ofNat 32 (16777216 - n) := by
  apply BitVec.eq_of_toNat_eq
  show (16777216#32 - BitVec.ofNat 32 n).toNat = _
  rw [BitVec.toNat_sub, BitVec.toNat_ofNat, BitVec.toNat_ofNat, BitVec.toNat_ofNat]
  omega

/-- … and reads back, signed, as the difference. -/
theorem word_rest_toInt (n : ℕ) (hn : n ≤ 16777216) :
    (((IntOp.subi 16777216#32 (BitVec.ofNat 32 n)).toInt : ℝ) : EReal) = (((16777216 : ℝ) - (n : ℝ) : ℝ) : EReal) := by
  have h31 : 16777216 - n < 2 ^ 31 := by omega
  rw [word_rest_word n hn, toInt_ofNat_small _ h31, Int.cast_natCast, Nat.cast_sub hn, Nat.cast_ofNat]

/-- The first denominator: the count converted is the number of equal-label pairs. -/
theorem eqDen_eq (y : Lab) (i : S_.Idx) : val_main_v30 (F := Ideal) y i = eqDen y := by
  rw [val_main_v30_apply, count_eq, sitofp_ideal]
  exact word_count_toInt _ (eqPairs_le y)

/-- The second denominator: 4096² less the count, converted. -/
theorem neqDen_eq (y : Lab) (i : S_.Idx) : val_main_v34 (F := Ideal) y i = neqDen y := by
  rw [val_main_v34_apply, val_main_v26_apply, val_main_c_4_apply, count_eq, sitofp_ideal]
  exact word_rest_toInt _ (eqPairs_le y)

/-- The row sum of squares at row a. -/
theorem sqn_eq (x : Feat) (a : Fin 4096) : val_main_v8 (F := Ideal) x (ix1 a) = sqn x a := by
  rw [val_main_v8_apply, val_main_cst_apply, Ideal.ofBits_def, Ideal.ofBits_zero_f32, zero_add]
  unfold sqn
  refine Finset.sum_congr rfl fun k _ => ?_
  rw [val_main_v7_apply, Ideal.mulf_def]
  have e : idx_main_v8 (ix1 a) k = ix2 a k := funext fun d => by match d with | ⟨0, _⟩ => rfl | ⟨1, _⟩ => rfl
  rw [e]

/-- The product with the transpose at (a, b) is the inner product of rows a and b. -/
theorem gram_eq (x : Feat) (a b : Fin 4096) : val_main_v10 (F := Ideal) x (ix2 a b) = gram x a b := by
  rw [val_main_v10_apply]
  unfold gram
  refine Finset.sum_congr rfl fun k _ => ?_
  rw [val_main_v9_apply]
  have el : lidx_main_v10 (ix2 a b) k = ix2 a k := funext fun d => by match d with | ⟨0, _⟩ => rfl | ⟨1, _⟩ => rfl
  have er : idx_main_v9 (ridx_main_v10 (ix2 a b) k) = ix2 b k := funext fun d => by match d with | ⟨0, _⟩ => rfl | ⟨1, _⟩ => rfl
  rw [el, er]

/-- The clamped squared distance at (a, b). -/
theorem d2_eq (x : Feat) (a b : Fin 4096) : val_main_v20 (F := Ideal) x (ix2 a b) = d2 x a b := by
  rw [val_main_v20_apply, val_main_v18_apply, val_main_v15_apply, val_main_v13_apply, val_main_v11_apply, val_main_v14_apply,
    val_main_v12_apply, val_main_v17_apply, val_main_v16_apply, val_main_cst_0_apply, val_main_v19_apply, val_main_cst_1_apply,
    gram_eq]
  have e13 : idx_main_v11 (idx_main_v13 (ix2 a b)) = ix1 b := funext fun d => by match d with | ⟨0, _⟩ => rfl
  have e14 : idx_main_v12 (idx_main_v14 (ix2 a b)) = ix1 a := funext fun d => by match d with | ⟨0, _⟩ => rfl
  rw [e13, e14, sqn_eq, sqn_eq]
  rfl

/-- The hinge at (a, b). -/
theorem hinge_eq (x : Feat) (a b : Fin 4096) : val_main_v29 (F := Ideal) x (ix2 a b) = hinge x a b := by
  rw [val_main_v29_apply, val_main_v28_apply, val_main_v27_apply, val_main_cst_5_apply, val_main_v23_apply, val_main_v22_apply,
    d2_eq, val_main_v21_apply, val_main_cst_2_apply, val_main_call0_v0_apply, val_main_call0_cst_apply]
  rfl

/-- The selected term at (a, b) is the pair's term with the two denominators. -/
theorem pair_eq (y : Lab) (x : Feat) (a b : Fin 4096) :
    val_main_v37 (F := Ideal) y x (ix2 a b) = pair y x (eqDen y) (neqDen y) a b := by
  rw [val_main_v37_apply, val_main_v32_apply, val_main_v36_apply, val_main_v31_apply, val_main_v35_apply, val_main_v33_apply,
    d2_eq, hinge_eq, eqDen_eq, neqDen_eq]
  unfold pair
  by_cases h : y (ix1 a) = y (ix1 b)
  · rw [if_pos h, (mask_iff y a b).2 h, select_one]; rfl
  · rw [if_neg h, eq_zero_of_ne_one (fun h1 => h ((mask_iff y a b).1 h1)), select_zero]; rfl

/-- The reference's result is the loss. -/
theorem ref_eq (y : Cert.Spec.Lab) (x : Cert.Spec.Feat) :
    Cert.ReferenceIdeal.Read.val_main_v39 (F := Ideal) y x = fun _ => Cert.Spec.theLoss y x := by
  funext i
  rw [val_main_v39_apply, val_main_cst_7_apply, val_main_v38_apply, val_main_cst_6_apply, Ideal.mulf_def, Ideal.ofBits_def,
    Ideal.ofBits_def, Ideal.ofBits_zero_f32, zero_add, sum_idx2]
  unfold theLoss loss
  congr 1
  exact Finset.sum_congr rfl fun a _ => Finset.sum_congr rfl fun b _ => pair_eq y x a b

end Cert.RefValue

end
-- ==== Proof.PreDecode.lean ====
/-
  The precondition read back at one label.

  The precondition is the conjunction of three statements, each "every element of an array of bits is 1": every
  feature has absolute value below +∞, every label is at least 0 signed, every label is below 100 signed. Each is a
  reduction by "and" of a bit array into a single bit, started at 1; the result is 1 only if every element is 1. A
  32-bit word that is at least 0 and below 100 as a signed integer has its top bit clear, so its unsigned value is
  its signed value: it is below 100.
-/
import proofs.«428971_j45028437131690_1_alg».proof.Proof.Gen.Pre_finite_inputs
import Idealize.ShloMosaic.Lib.ReduceAll
import Idealize.ShloMosaic.Lib.StableHlo.Predicate
import Idealize.ShloMosaic.Lib.ValueIdx

namespace Cert.PreDecode

open Idealize.ShloMosaic

/-- The scalar shape has one index. -/
instance subsingleton_scalar_idx : Subsingleton Cert.Pre_finite_inputs.S_.Idx :=
  ⟨fun _ _ => funext fun d => d.elim0⟩

/-- A 32-bit word in [0, 100) signed is below 100 unsigned: w ≥ 0 signed says the top bit is clear, so the signed and
    unsigned readings agree, and the signed reading is below 100. -/
theorem toNat_lt_of_signed (w : BitVec 32) (h0 : IntOp.cmpi .sge w 0#32 = 1#1) (h1 : IntOp.cmpi .slt w 100#32 = 1#1) :
    w.toNat < 100 := by
  rw [IntOp.cmpi_sge, show (0#32 : BitVec 32).toInt = 0 from by decide] at h0
  rw [IntOp.cmpi_slt, show (100#32 : BitVec 32).toInt = 100 from by decide] at h1
  have hlt := w.isLt
  rw [BitVec.toInt_eq_toNat_cond] at h0 h1
  split at h0 <;> omega

/-- THE PRECONDITION DECODED at label a: the label's unsigned value is below 100. -/
theorem range_of_pre {F : FTy → Type} [FloatOps F] [Cert.Pre_finite_inputs.Facts]
    (y : IVec Cert.Pre_finite_inputs.S4096 32) (x : FVec F Cert.Pre_finite_inputs.S4096x512 .f32)
    (h : Cert.Pre_finite_inputs.fn (F := F) y x = fun _ => 1#1) :
    ∀ a : Fin 4096, (y (Idealize.ShloMosaic.ValueIdx.ix1 a)).toNat < 100 := by
  intro a
  have e := congrFun h ValueIdx.ix0
  dsimp only [Cert.Pre_finite_inputs.fn] at e
  -- the outer conjunction: (finite ∧ nonnegative) ∧ below 100
  obtain ⟨e12, e3⟩ := IntOp.andi_eq_one.1 e
  obtain ⟨-, e2⟩ := IntOp.andi_eq_one.1 e12
  -- each reduction by "and" that is 1 had a 1 at index a
  have g2 := Host.reduce_andi_all _ _ _ _ _ e2 (ValueIdx.ix1 a)
  have g3 := Host.reduce_andi_all _ _ _ _ _ e3 (ValueIdx.ix1 a)
  -- the broadcast constants read at index a are the constants
  exact toNat_lt_of_signed _ g2 g3

end Cert.PreDecode
-- ==== Proof.lean ====
/- The proof of `Cert.Claim`: the three frames, the (empty) idealization ledger, and the equality of the two idealized
   programs' results over the extended reals.

   Both programs compute the contrastive loss of Proof/Spec.lean: for labels y and features x, half the sum over all
   ordered pairs of rows of d²(a, b) / e when the labels agree and max(1 − √(d²(a, b) + ε), 0)² / n otherwise, with e the
   number of equal-label pairs and n = 4096² − e. The reference forms the whole 4096 × 4096 table at once and counts the
   equal-label pairs directly (Proof/RefValue.lean). The kernel walks an 8 × 8 grid of 512 × 512 blocks, adding each
   block's sum to an accumulator it keeps between grid points, and obtains e as the sum of squares of the per-label
   counts of a 100-bucket histogram, which is the number of equal-label pairs exactly when every label lies in
   [0, 100) — the precondition's label-range conjunct (Proof/PreDecode.lean, Proof/KernelCounts.lean). Regrouping a
   finite sum of extended reals by blocks needs no finiteness, so the float precondition is not used
   (Proof/KernelValue.lean). The kernel's two feature windows read one array, so its frame run holds that array at two
   half shares (Proof/LibSharedFrame.lean, Proof/KernelIdeal/Frame.lean; the word-level program's modules under
   Proof/Kernel/ are the same text at the other namespace). -/
import proofs.«428971_j45028437131690_1_alg».proof.Defs
import proofs.«428971_j45028437131690_1_alg».proof.Proof.Gen.Kernel
import proofs.«428971_j45028437131690_1_alg».proof.Proof.Gen.KernelIdeal
import proofs.«428971_j45028437131690_1_alg».proof.Proof.Gen.ReferenceIdeal
import proofs.«428971_j45028437131690_1_alg».proof.Proof.Gen.Pre_finite_inputs
import proofs.«428971_j45028437131690_1_alg».proof.Proof.Kernel.Frame
import proofs.«428971_j45028437131690_1_alg».proof.Proof.KernelIdeal.Frame
import proofs.«428971_j45028437131690_1_alg».proof.Proof.KernelValue
import proofs.«428971_j45028437131690_1_alg».proof.Proof.RefValue
import proofs.«428971_j45028437131690_1_alg».proof.Proof.PreDecode
import Idealize.ShloMosaic.Adequacy
import Idealize.ShloMosaic.Init

noncomputable section

namespace Cert.Proof

open Idealize.ShloMosaic Idealize.ShloMosaic.TcCoe Idealize.SL.Sem

/-- The word-level kernel runs to the end and leaves its arguments unchanged. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Under the precondition both idealized programs end with the loss of the arguments, which agree. -/
theorem algebraic : Cert.algebraic_KernelIdeal_ReferenceIdeal := by
  intro m ρ m' ρ' hpre hagree
  refine ⟨fun c => fun _ => Cert.Spec.theLoss (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · refine (θ_run Cert.KernelIdeal.defs _ _).mono (fun r h c => ?_) (Cert.KernelIdeal.Hand.run_main m ρ)
    have hy := Cert.PreDecode.range_of_pre _ _ (hpre c)
    exact ⟨((h c).2 Cert.KernelIdeal.main_v23 Cert.KernelIdeal.Hand.main_v23_mem_rest).trans (Cert.KernelValue.kernel_value m c hy),
      ((h c).2 Cert.KernelIdeal.main_arg0 Cert.KernelIdeal.Hand.main_arg0_mem_rest).trans
        (Cert.KernelIdeal.Hand.arg0_kept m c (Cert.KernelIdeal.Hand.VN m c)
          (Cert.KernelIdeal.Hand.VN_rest m c Cert.KernelIdeal.main_arg0 Cert.KernelIdeal.Hand.main_arg0_mem_rest)),
      ((h c).2 Cert.KernelIdeal.main_arg1 Cert.KernelIdeal.Hand.main_arg1_mem_rest).trans
        (Cert.KernelIdeal.Hand.arg1_kept m c (Cert.KernelIdeal.Hand.VN m c)
          (Cert.KernelIdeal.Hand.VN_rest m c Cert.KernelIdeal.main_arg1 Cert.KernelIdeal.Hand.main_arg1_mem_rest))⟩
  · refine (θ_run Cert.ReferenceIdeal.defs _ _).mono (fun _ h c => ⟨?_, (h c).2⟩)
      (Cert.ReferenceIdeal.Value.run (F := Ideal) m' ρ')
    rw [(h c).1, Cert.ReferenceIdeal.Read.val_main_v39_eq, Cert.RefValue.ref_eq, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
